-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) (main_v33 : IVec S_ 1) : IVec S_ 1 :=
  let main_v34 : FVec F S4096x32 .f32 := Host.absf main_arg7
  let main_cst_12 : FVec F S_ .f32 := constant S_ .f32 0x7F800000#32
  let main_v35 : FVec F S4096x32 .f32 := broadcastInDim S4096x32 ![] bcast_S_S4096x32 main_cst_12
  let main_v36 : IVec S4096x32 1 := cmpf .olt main_v34 main_v35
  let main_c_13 : IVec S_ 1 := constantI S_ 1 1#1
  let main_v37 : IVec S_ 1 := (fun x v => Host.reduce IntOp.andi x v reducesTo_S4096x32_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024 .f32) (main_arg6 : FVec F S1024 .f32) (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x2048x1024 .f32) (main_arg1 : FVec F S1024x1024 .f32) (main_arg2 : FVec F S64 .f32) (main_arg3 : FVec F S1024x1024 .f32) (main_arg4 : FVec F S1024 .f32) (main_arg5 : FVec F S1024 .f32) (main_arg6 : FVec F S1024 .f32) (main_arg7 : FVec F S4096x32 .f32) (main_arg8 : FVec F S4096 .f32) (main_arg9 : FVec F S1024x4096 .f32) (main_arg10 : FVec F S1024 .f32) (main_arg11 : FVec F S1024 .f32) (main_arg12 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S16384x1024 : Shape := ⟨2, ![16384, 1024]⟩
abbrev S32x4096 : Shape := ⟨2, ![32, 4096]⟩
abbrev S4096x1024 : Shape := ⟨2, ![4096, 1024]⟩
abbrev S1x64 : Shape := ⟨2, ![1, 64]⟩
abbrev S16x64 : Shape := ⟨2, ![16, 64]⟩
abbrev S1x1024 : Shape := ⟨2, ![1, 1024]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x32 : Shape := ⟨2, ![256, 32]⟩
abbrev S256x4096 : Shape := ⟨2, ![256, 4096]⟩

abbrev nBuf : Space → Nat
  | .hbm => 36
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x32, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S16384x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S32x4096, .f32⟩
  | .hbm, ⟨19, _⟩ => ⟨S32x4096, .bf16⟩
  | .hbm, ⟨20, _⟩ => ⟨S4096x1024, .f32⟩
  | .hbm, ⟨21, _⟩ => ⟨S4096x1024, .bf16⟩
  | .hbm, ⟨22, _⟩ => ⟨S64, .f32⟩
  | .hbm, ⟨23, _⟩ => ⟨S1x64, .f32⟩
  | .hbm, ⟨24, _⟩ => ⟨S16x64, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x4096, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S8x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S32x4096, .bf16⟩
  | .local _ .vmem, ⟨9, _⟩ => ⟨S1x4096, .f32⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8x2048x1024_S16384x1024 : S8x2048x1024.ShapeCasts S16384x1024
  transposes_S1024x1024_S1024x1024_1_0 : S1024x1024.Transposes [1, 0] S1024x1024
  bitsLt_bf16_f32 : FTy.bits .bf16 < FTy.bits .f32
  transposes_S4096x32_S32x4096_1_0 : S4096x32.Transposes [1, 0] S32x4096
  transposes_S1024x4096_S4096x1024_1_0 : S1024x4096.Transposes [1, 0] S4096x1024
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  shapeCasts_S1024_S1x1024 : S1024.ShapeCasts S1x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  slices_S256x1024_o0_0_S256x32 : S256x1024.Slices ![0, 0] S256x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S16384x1024_S8x2048x1024 : S16384x1024.ShapeCasts S8x2048x1024
  dot_S256x1024_S1024x1024_S256x1024_1_0_0_1_n_n_wf : DotDims.WF S256x1024 S1024x1024 S256x1024 [1] [0] [0] [1] [] []
  dot_S256x32_S32x4096_S256x4096_1_0_0_1_n_n_wf : DotDims.WF S256x32 S32x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x4096.size a ≤ S32x4096.size a
  hwx0_7 : ∀ i : grid0.Coords, EltTy.bits .bf16 = 32 ∨ (Rect.block (s := S32x4096) S32x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x1024.size a ≤ S4096x1024.size a
  hwx0_9 : ∀ i : grid0.Coords, EltTy.bits .bf16 = 32 ∨ (Rect.block (s := S4096x1024) S4096x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x32_S32x4096_S256x4096_1_0_0_1_n_n : DotDims S256x32 S32x4096 S256x4096 where
  lhsContracting := [1]
  rhsContracting := [0]
  lhsNonContracting := [0]
  rhsNonContracting := [1]
  lhsBatch := []
  rhsBatch := []
  wf := dot_S256x32_S32x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S32x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S64 : Shape := ⟨1, ![64]⟩
abbrev S1024 : Shape := ⟨1, ![1024]⟩
abbrev S4096x32 : Shape := ⟨2, ![4096, 32]⟩
abbrev S4096 : Shape := ⟨1, ![4096]⟩
abbrev S1024x4096 : Shape := ⟨2, ![1024, 4096]⟩
abbrev S8x2048x16x64 : Shape := ⟨4, ![8, 2048, 16, 64]⟩
abbrev S1x1x1x64 : Shape := ⟨4, ![1, 1, 1, 64]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x2048x32 : Shape := ⟨3, ![8, 2048, 32]⟩
abbrev S8x2048x4096 : Shape := ⟨3, ![8, 2048, 4096]⟩
abbrev S1x1x4096 : Shape := ⟨3, ![1, 1, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x32, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S8x2048x1024, .f32⟩
  | .hbm, ⟨14, _⟩ => ⟨S8x2048x16x64, .f32⟩
  | .hbm, ⟨15, _⟩ => ⟨S8x2048x16x64, .f32⟩
  | .hbm, ⟨16, _⟩ => ⟨S64, .f32⟩
  | .hbm, ⟨17, _⟩ => ⟨S1x1x1x64, .f32⟩
  | .hbm, ⟨18, _⟩ => ⟨S8x2048x16x64, .f32⟩
  | .hbm, ⟨19, _⟩ => ⟨S8x2048x16x64, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S8x2048x32, .f32⟩
  | .hbm, ⟨56, _⟩ => ⟨S8x2048x32, .f32⟩
  | .hbm, ⟨57, _⟩ => ⟨S8x2048x4096, .f32⟩
  | .hbm, ⟨58, _⟩ => ⟨S1x1x4096, .f32⟩
  | .hbm, ⟨59, _⟩ => ⟨S8x2048x4096, .f32⟩
  | .hbm, ⟨60, _⟩ => ⟨S8x2048x4096, .f32⟩
  | .hbm, ⟨61, _⟩ => ⟨S_, .f32⟩
  | .hbm, ⟨62, _⟩ => ⟨S8x2048x4096, .f32⟩
  | .hbm, ⟨63, _⟩ => ⟨S8x2048x4096, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1024, .f32⟩
  | .hbm, ⟨91, _⟩ => ⟨S8x2048x1024, .f32⟩
  | .hbm, ⟨92, _⟩ => ⟨S1x1x1024, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_6 : Ref sig .tc := ⟨.hbm, 78, rfl⟩
abbrev main_v56 : Ref sig .tc := ⟨.hbm, 79, rfl⟩
abbrev main_v57 : Ref sig .tc := ⟨.hbm, 80, rfl⟩
abbrev main_cst_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  shapeCasts_S8x2048x1024_S8x2048x16x64 : S8x2048x1024.ShapeCasts S8x2048x16x64
  bcast_S64_S1x1x1x64_3 : S64.BroadcastsInDim S1x1x1x64 (![3] : Fin 1 → Fin S1x1x1x64.rank)
  bcast_S1x1x1x64_S8x2048x16x64_0_1_2_3 : S1x1x1x64.BroadcastsInDim S8x2048x16x64 (![0, 1, 2, 3] : Fin 4 → Fin S8x2048x16x64.rank)
  shapeCasts_S8x2048x16x64_S8x2048x1024 : S8x2048x16x64.ShapeCasts S8x2048x1024
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  slices_S8x2048x1024_S8x2048x32_0_0_0 : S8x2048x1024.Slices ![0, 0, 0] S8x2048x32
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x1024_S1024x1024_S8x2048x1024_2_1_01_0_n_n_wf : DotDims.WF S8x2048x1024 S1024x1024 S8x2048x1024 [2] [1] [0, 1] [0] [] []
  dot_S8x2048x32_S4096x32_S8x2048x4096_2_1_01_0_n_n_wf : DotDims.WF S8x2048x32 S4096x32 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x32_S4096x32_S8x2048x4096_2_1_01_0_n_n : DotDims S8x2048x32 S4096x32 S8x2048x4096 where
  lhsContracting := [2]
  rhsContracting := [1]
  lhsNonContracting := [0, 1]
  rhsNonContracting := [0]
  lhsBatch := []
  rhsBatch := []
  wf := dot_S8x2048x32_S4096x32_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.Spec.lean ====
/-
  One token through the block, on the extended reals.

  Both programs send each of the 8 · 2048 tokens, a row `x` of 1024 features, through the same chain, and no
  token's result depends on another token's row:

    proj f   = ∑ k, x k · Wq f k                              (a row times the transpose of the projection weights)
    q f      = cos (proj f) · c f                             (c f = cos (ry (f mod 64)): one 64-vector shared by the 16 heads)
    attn f   = ∑ k, q k · Wc f k + bc f
    h        = layerNorm (x + attn) g₁ b₁
    hid j    = max (∑ w < 32, cos (h w) · W₁ j w + b₁' j) 0   (only the first 32 features enter)
    ffn e    = ∑ j, hid j · W₂ e j + b₂' e
    out      = layerNorm (h + ffn) g₂ b₂

  with layerNorm y g b e = (y e − μ) · rsqrt (σ² + ε) · g e + b e, μ the row's sum over 1024 divided by the float
  1024, σ² the sum of the squared deviations divided by the same float, ε the float nearest 1e-5. Every operation is
  the exact one of the extended reals (`Ideal.div`, `Ideal.rsqrt`, `Ideal.cos`, sums over `Fin`), the two float
  words are kept as words (the same word stands on both sides and is never evaluated), and the weights are indexed
  (output feature, input feature) as the argument arrays store them.

  `tok` is the row function; `G` is the whole result array [8, 2048, 1024] as a function of the thirteen argument
  arrays: entry (b, s, e) is `tok` of row (b, s) of `x` at `e`.
-/
import Idealize.ShloMosaic.PureOps.Ideal
import Idealize.ShloMosaic.Lib.ValueIdx

noncomputable section

open scoped BigOperators

namespace Cert.TokenBlock

open Idealize.ShloMosaic Idealize.ShloMosaic.ValueIdx

/-- The float 1024.0 a row's sum is divided by (as its word: never evaluated). -/
def width : EReal := Ideal.ofBits .f32 0x44800000#32

/-- The float nearest 1e-5 added to the variance (as its word: never evaluated). -/
def eps : EReal := Ideal.ofBits .f32 0x3727C5AC#32

/-- A row times the transpose of a weight matrix stored (output, input): entry `f` is `∑ j, x j · W f j`. -/
def linT {n k : Nat} (x : Fin k → EReal) (W : Fin n → Fin k → EReal) (f : Fin n) : EReal :=
  ∑ j : Fin k, x j * W f j

/-- A row's sum over its 1024 features divided by the float 1024. -/
def mean (y : Fin 1024 → EReal) : EReal := Ideal.div (∑ k : Fin 1024, y k) width

/-- The mean of the squared deviations from the mean. -/
def var (y : Fin 1024 → EReal) : EReal := mean fun k => (y k - mean y) * (y k - mean y)

/-- Layer normalisation of a row with gain `g` and offset `b`. -/
def layerNorm (y g b : Fin 1024 → EReal) (e : Fin 1024) : EReal :=
  (y e - mean y) * Ideal.rsqrt (var y + eps) * g e + b e

/-- The attention branch of a row: project, take cosines scaled by the shared per-feature factor `c`, combine. -/
def attn (x : Fin 1024 → EReal) (Wq : Fin 1024 → Fin 1024 → EReal) (c : Fin 1024 → EReal)
    (Wc : Fin 1024 → Fin 1024 → EReal) (bc : Fin 1024 → EReal) (f : Fin 1024) : EReal :=
  linT (fun k => Ideal.cos (linT x Wq k) * c k) Wc f + bc f

/-- The row after the first residual and normalisation. -/
def mid (x : Fin 1024 → EReal) (Wq : Fin 1024 → Fin 1024 → EReal) (c : Fin 1024 → EReal)
    (Wc : Fin 1024 → Fin 1024 → EReal) (bc g1 b1 : Fin 1024 → EReal) : Fin 1024 → EReal :=
  layerNorm (fun f => x f + attn x Wq c Wc bc f) g1 b1

/-- The hidden layer of the feed-forward branch: cosines of the first 32 features, a linear map, the positive part. -/
def hidden (h : Fin 1024 → EReal) (W1 : Fin 4096 → Fin 32 → EReal) (b1' : Fin 4096 → EReal) (j : Fin 4096) : EReal :=
  max (linT (fun w : Fin 32 => Ideal.cos (h (Fin.castLE (by decide) w))) W1 j + b1' j) 0

/-- The feed-forward branch of a row. -/
def ffn (h : Fin 1024 → EReal) (W1 : Fin 4096 → Fin 32 → EReal) (b1' : Fin 4096 → EReal)
    (W2 : Fin 1024 → Fin 4096 → EReal) (b2' : Fin 1024 → EReal) (e : Fin 1024) : EReal :=
  linT (hidden h W1 b1') W2 e + b2' e

/-- One token's row through the whole block. -/
def tok (x : Fin 1024 → EReal) (Wq : Fin 1024 → Fin 1024 → EReal) (c : Fin 1024 → EReal)
    (Wc : Fin 1024 → Fin 1024 → EReal) (bc g1 b1 : Fin 1024 → EReal)
    (W1 : Fin 4096 → Fin 32 → EReal) (b1' : Fin 4096 → EReal)
    (W2 : Fin 1024 → Fin 4096 → EReal) (b2' g2 b2 : Fin 1024 → EReal) : Fin 1024 → EReal :=
  layerNorm (fun e => mid x Wq c Wc bc g1 b1 e + ffn (mid x Wq c Wc bc g1 b1) W1 b1' W2 b2' e) g2 b2

/-- The per-feature factor of the attention branch: the cosine of the shared 64-vector, repeated over the 16 heads. -/
def headFactor (ry : (⟨1, ![64]⟩ : Shape).Idx → EReal) (f : Fin 1024) : EReal :=
  Ideal.cos (ry (ix1 ⟨f.val % 64, Nat.mod_lt _ (by decide)⟩))

/-- The whole result [8, 2048, 1024] as a function of the thirteen argument arrays: entry (b, s, e) is the block applied
    to row (b, s) of `x`, read at feature `e`. -/
def G (x : (⟨3, ![8, 2048, 1024]⟩ : Shape).Idx → EReal) (qw : (⟨2, ![1024, 1024]⟩ : Shape).Idx → EReal)
    (ry : (⟨1, ![64]⟩ : Shape).Idx → EReal) (cw : (⟨2, ![1024, 1024]⟩ : Shape).Idx → EReal)
    (cb g1 b1 : (⟨1, ![1024]⟩ : Shape).Idx → EReal) (l1w : (⟨2, ![4096, 32]⟩ : Shape).Idx → EReal)
    (l1b : (⟨1, ![4096]⟩ : Shape).Idx → EReal) (l2w : (⟨2, ![1024, 4096]⟩ : Shape).Idx → EReal)
    (l2b g2 b2 : (⟨1, ![1024]⟩ : Shape).Idx → EReal) : (⟨3, ![8, 2048, 1024]⟩ : Shape).Idx → EReal :=
  fun i => tok (fun k => x (ix3 (i 0) (i 1) k)) (fun f k => qw (ix2 f k)) (headFactor ry) (fun f k => cw (ix2 f k))
    (fun f => cb (ix1 f)) (fun f => g1 (ix1 f)) (fun f => b1 (ix1 f)) (fun j w => l1w (ix2 j w)) (fun j => l1b (ix1 j))
    (fun e j => l2w (ix2 e j)) (fun e => l2b (ix1 e)) (fun e => g2 (ix1 e)) (fun e => b2 (ix1 e)) (i 2)

/-- `G` at explicit coordinates. -/
theorem G_apply (x : (⟨3, ![8, 2048, 1024]⟩ : Shape).Idx → EReal) (qw : (⟨2, ![1024, 1024]⟩ : Shape).Idx → EReal)
    (ry : (⟨1, ![64]⟩ : Shape).Idx → EReal) (cw : (⟨2, ![1024, 1024]⟩ : Shape).Idx → EReal)
    (cb g1 b1 : (⟨1, ![1024]⟩ : Shape).Idx → EReal) (l1w : (⟨2, ![4096, 32]⟩ : Shape).Idx → EReal)
    (l1b : (⟨1, ![4096]⟩ : Shape).Idx → EReal) (l2w : (⟨2, ![1024, 4096]⟩ : Shape).Idx → EReal)
    (l2b g2 b2 : (⟨1, ![1024]⟩ : Shape).Idx → EReal) (b : Fin 8) (s : Fin 2048) (e : Fin 1024) :
    G x qw ry cw cb g1 b1 l1w l1b l2w l2b g2 b2 (ix3 b s e)
      = tok (fun k => x (ix3 b s k)) (fun f k => qw (ix2 f k)) (headFactor ry) (fun f k => cw (ix2 f k))
          (fun f => cb (ix1 f)) (fun f => g1 (ix1 f)) (fun f => b1 (ix1 f)) (fun j w => l1w (ix2 j w)) (fun j => l1b (ix1 j))
          (fun e j => l2w (ix2 e j)) (fun e => l2b (ix1 e)) (fun e => g2 (ix1 e)) (fun e => b2 (ix1 e)) e := rfl

end Cert.TokenBlock

end
-- ==== Proof.HostPrefix.lean ====
/-
  What the thirteen arrays the kernel's windows stage hold when the region is entered, as functions of the argument
  arrays: the token matrix is `x` with its two leading axes merged (row r is token (r / 2048, r % 2048)); each weight
  matrix is the transpose of its argument (a change of float format is the identity on the extended reals); the
  per-feature factor is the cosine of the shared 64-vector repeated over the 16 heads; each bias and gain is its
  argument with a leading unit axis.
-/
import proofs.«149033_j65481071407980_1_alg».proof.Proof.Gen.KernelIdeal.Frame
import proofs.«149033_j65481071407980_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrefix

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The whole array: `x` with its two leading axes merged. -/
theorem arr_tokens :
    (V m c main_v0 : S16384x1024.Idx → EReal)
      = shapeCast (s := S8x2048x1024) (α := EReal) S16384x1024
          (m ((c.tc : Thread nD τ).loc main_arg0)) shapeCasts_S8x2048x1024_S16384x1024 := by
  show StableHlo.after hostOps0 (fun b => m (c, b)) (Proc.devRef .tc main_v0) = _
  after_results
  rfl

/-- The token matrix [16384, 1024]: row `r` is token (r / 2048, r % 2048) of `x`. -/
theorem V_tokens (r : Fin 16384) (k : Fin 1024) :
    (V m c main_v0 : S16384x1024.Idx → EReal) (ix2 r k)
      = (m ((c.tc : Thread nD τ).loc main_arg0) : S8x2048x1024.Idx → EReal)
          (ix3 ⟨r.val / 2048, by omega⟩ ⟨r.val % 2048, Nat.mod_lt _ (by decide)⟩ k) := by
  rw [arr_tokens]
  -- both indices have the same row-major position: (r / 2048 · 2048 + r % 2048) · 1024 + k = r · 1024 + k
  refine shapeCast_apply (s := S8x2048x1024) (t := S16384x1024) _ _ _ _ ?_
  rw [Shape.rowMajor_val_three, Shape.rowMajor_val_two]
  show (r.val / 2048 * 2048 + r.val % 2048) * 1024 + k.val = r.val * 1024 + k.val
  omega

/-- The whole array: the argument transposed, then a change of float format. -/
theorem arr_projT :
    (V m c main_v2 : S1024x1024.Idx → EReal)
      = truncf (F := Ideal) (s := S1024x1024) (φ := .f32) .bf16
          (transpose (s := S1024x1024) (α := EReal) S1024x1024 [1, 0]
            (m ((c.tc : Thread nD τ).loc main_arg1)) transposes_S1024x1024_S1024x1024_1_0)
          bitsLt_bf16_f32 := by
  show StableHlo.after hostOps0 (fun b => m (c, b)) (Proc.devRef .tc main_v2) = _
  after_results

/-- The projection weights, transposed. -/
theorem V_projT (k f : Fin 1024) :
    (V m c main_v2 : S1024x1024.Idx → EReal) (ix2 k f)
      = (m ((c.tc : Thread nD τ).loc main_arg1) : S1024x1024.Idx → EReal) (ix2 f k) := by
  rw [arr_projT, truncf_apply]
  exact transpose_ix2_apply _ _ k f

/-- The whole array: the cosine of the 64-vector, as a row, repeated down 16 rows, flattened, as a row again. -/
theorem arr_headFactor :
    (V m c main_v13 : S1x1024.Idx → EReal)
      = shapeCast (s := S1024) (α := EReal) S1x1024
          (shapeCast (s := S16x64) (α := EReal) S1024
            (broadcastInDim (s := S1x64) (α := EReal) S16x64 ![0, 1] bcast_S1x64_S16x64_0_1
              (shapeCast (s := S64) (α := EReal) S1x64
                (Host.cos (F := Ideal) (s := S64) (φ := .f32) (m ((c.tc : Thread nD τ).loc main_arg2)))
                shapeCasts_S64_S1x64))
            shapeCasts_S16x64_S1024)
          shapeCasts_S1024_S1x1024 := by
  show StableHlo.after hostOps0 (fun b => m (c, b)) (Proc.devRef .tc main_v13) = _
  after_results
  rfl

/-- The per-feature factor: the cosine of the shared 64-vector, repeated over the 16 heads. -/
theorem V_headFactor (z : Fin 1) (f : Fin 1024) :
    (V m c main_v13 : S1x1024.Idx → EReal) (ix2 z f)
      = Cert.TokenBlock.headFactor (m ((c.tc : Thread nD τ).loc main_arg2) : S64.Idx → EReal) f := by
  rw [arr_headFactor]
  -- the leading unit axis: entry (z, f) of the row is entry f of the flattened array
  refine (shapeCast_a_1a_apply _ shapeCasts_S1024_S1x1024 z f).trans ?_
  -- entry f of the flattened [16, 64] array is its entry (f / 64, f % 64): f / 64 · 64 + f % 64 = f
  refine (shapeCast_apply (s := S16x64) (t := S1024) _ shapeCasts_S16x64_S1024 (ix1 f)
    (ix2 (⟨f.val / 64, by omega⟩ : Fin 16) (⟨f.val % 64, Nat.mod_lt _ (by decide)⟩ : Fin 64)) ?_).trans ?_
  · rw [Shape.rowMajor_val_two, Shape.rowMajor_val_one]
    show f.val / 64 * 64 + f.val % 64 = f.val
    omega
  -- a row repeated down 16 rows: entry (h, d) is entry (0, d) of the row
  refine (broadcastInDim_apply (s := S1x64) (t := S16x64) ![0, 1] bcast_S1x64_S16x64_0_1 _ _
    (ix2 (0 : Fin 1) (⟨f.val % 64, Nat.mod_lt _ (by decide)⟩ : Fin 64)) (fun a => match a with
      | ⟨0, _⟩ => rfl
      | ⟨1, _⟩ => rfl)).trans ?_
  -- the row is the vector of cosines with a leading unit axis
  refine (shapeCast_a_1a_apply _ shapeCasts_S64_S1x64 (0 : Fin 1) _).trans ?_
  rfl

/-- The whole array: the argument transposed, then a change of float format. -/
theorem arr_combT :
    (V m c main_v4 : S1024x1024.Idx → EReal)
      = truncf (F := Ideal) (s := S1024x1024) (φ := .f32) .bf16
          (transpose (s := S1024x1024) (α := EReal) S1024x1024 [1, 0]
            (m ((c.tc : Thread nD τ).loc main_arg3)) transposes_S1024x1024_S1024x1024_1_0)
          bitsLt_bf16_f32 := by
  show StableHlo.after hostOps0 (fun b => m (c, b)) (Proc.devRef .tc main_v4) = _
  after_results

/-- The combine weights, transposed. -/
theorem V_combT (k f : Fin 1024) :
    (V m c main_v4 : S1024x1024.Idx → EReal) (ix2 k f)
      = (m ((c.tc : Thread nD τ).loc main_arg3) : S1024x1024.Idx → EReal) (ix2 f k) := by
  rw [arr_combT, truncf_apply]
  exact transpose_ix2_apply _ _ k f

/-- The whole array: its argument with a leading unit axis added. -/
theorem arr_combB :
    (V m c main_v14 : S1x1024.Idx → EReal)
      = shapeCast (s := S1024) (α := EReal) S1x1024
          (m ((c.tc : Thread nD τ).loc main_arg4)) shapeCasts_S1024_S1x1024 := by
  show StableHlo.after hostOps0 (fun b => m (c, b)) (Proc.devRef .tc main_v14) = _
  after_results
  rfl

/-- The combine bias as a row. -/
theorem V_combB (z : Fin 1) (f : Fin 1024) :
    (V m c main_v14 : S1x1024.Idx → EReal) (ix2 z f)
      = (m ((c.tc : Thread nD τ).loc main_arg4) : S1024.Idx → EReal) (ix1 f) := by
  rw [arr_combB]
  exact shapeCast_a_1a_apply _ _ z f

/-- The whole array: its argument with a leading unit axis added. -/
theorem arr_gain1 :
    (V m c main_v15 : S1x1024.Idx → EReal)
      = shapeCast (s := S1024) (α := EReal) S1x1024
          (m ((c.tc : Thread nD τ).loc main_arg5)) shapeCasts_S1024_S1x1024 := by
  show StableHlo.after hostOps0 (fun b => m (c, b)) (Proc.devRef .tc main_v15) = _
  after_results
  rfl

/-- The first normalisation's gain as a row. -/
theorem V_gain1 (z : Fin 1) (f : Fin 1024) :
    (V m c main_v15 : S1x1024.Idx → EReal) (ix2 z f)
      = (m ((c.tc : Thread nD τ).loc main_arg5) : S1024.Idx → EReal) (ix1 f) := by
  rw [arr_gain1]
  exact shapeCast_a_1a_apply _ _ z f

/-- The whole array: its argument with a leading unit axis added. -/
theorem arr_off1 :
    (V m c main_v16 : S1x1024.Idx → EReal)
      = shapeCast (s := S1024) (α := EReal) S1x1024
          (m ((c.tc : Thread nD τ).loc main_arg6)) shapeCasts_S1024_S1x1024 := by
  show StableHlo.after hostOps0 (fun b => m (c, b)) (Proc.devRef .tc main_v16) = _
  after_results
  rfl

/-- The first normalisation's offset as a row. -/
theorem V_off1 (z : Fin 1) (f : Fin 1024) :
    (V m c main_v16 : S1x1024.Idx → EReal) (ix2 z f)
      = (m ((c.tc : Thread nD τ).loc main_arg6) : S1024.Idx → EReal) (ix1 f) := by
  rw [arr_off1]
  exact shapeCast_a_1a_apply _ _ z f

/-- The whole array: the argument transposed, then a change of float format. -/
theorem arr_lin1T :
    (V m c main_v6 : S32x4096.Idx → EReal)
      = truncf (F := Ideal) (s := S32x4096) (φ := .f32) .bf16
          (transpose (s := S4096x32) (α := EReal) S32x4096 [1, 0]
            (m ((c.tc : Thread nD τ).loc main_arg7)) transposes_S4096x32_S32x4096_1_0)
          bitsLt_bf16_f32 := by
  show StableHlo.after hostOps0 (fun b => m (c, b)) (Proc.devRef .tc main_v6) = _
  after_results

/-- The first feed-forward weights, transposed. -/
theorem V_lin1T (w : Fin 32) (j : Fin 4096) :
    (V m c main_v6 : S32x4096.Idx → EReal) (ix2 w j)
      = (m ((c.tc : Thread nD τ).loc main_arg7) : S4096x32.Idx → EReal) (ix2 j w) := by
  rw [arr_lin1T, truncf_apply]
  exact transpose_ix2_apply _ _ w j

/-- The whole array: its argument with a leading unit axis added. -/
theorem arr_lin1B :
    (V m c main_v17 : S1x4096.Idx → EReal)
      = shapeCast (s := S4096) (α := EReal) S1x4096
          (m ((c.tc : Thread nD τ).loc main_arg8)) shapeCasts_S4096_S1x4096 := by
  show StableHlo.after hostOps0 (fun b => m (c, b)) (Proc.devRef .tc main_v17) = _
  after_results
  rfl

/-- The first feed-forward bias as a row. -/
theorem V_lin1B (z : Fin 1) (j : Fin 4096) :
    (V m c main_v17 : S1x4096.Idx → EReal) (ix2 z j)
      = (m ((c.tc : Thread nD τ).loc main_arg8) : S4096.Idx → EReal) (ix1 j) := by
  rw [arr_lin1B]
  exact shapeCast_a_1a_apply _ _ z j

/-- The whole array: the argument transposed, then a change of float format. -/
theorem arr_lin2T :
    (V m c main_v8 : S4096x1024.Idx → EReal)
      = truncf (F := Ideal) (s := S4096x1024) (φ := .f32) .bf16
          (transpose (s := S1024x4096) (α := EReal) S4096x1024 [1, 0]
            (m ((c.tc : Thread nD τ).loc main_arg9)) transposes_S1024x4096_S4096x1024_1_0)
          bitsLt_bf16_f32 := by
  show StableHlo.after hostOps0 (fun b => m (c, b)) (Proc.devRef .tc main_v8) = _
  after_results

/-- The second feed-forward weights, transposed. -/
theorem V_lin2T (j : Fin 4096) (e : Fin 1024) :
    (V m c main_v8 : S4096x1024.Idx → EReal) (ix2 j e)
      = (m ((c.tc : Thread nD τ).loc main_arg9) : S1024x4096.Idx → EReal) (ix2 e j) := by
  rw [arr_lin2T, truncf_apply]
  exact transpose_ix2_apply _ _ j e

/-- The whole array: its argument with a leading unit axis added. -/
theorem arr_lin2B :
    (V m c main_v18 : S1x1024.Idx → EReal)
      = shapeCast (s := S1024) (α := EReal) S1x1024
          (m ((c.tc : Thread nD τ).loc main_arg10)) shapeCasts_S1024_S1x1024 := by
  show StableHlo.after hostOps0 (fun b => m (c, b)) (Proc.devRef .tc main_v18) = _
  after_results
  rfl

/-- The second feed-forward bias as a row. -/
theorem V_lin2B (z : Fin 1) (e : Fin 1024) :
    (V m c main_v18 : S1x1024.Idx → EReal) (ix2 z e)
      = (m ((c.tc : Thread nD τ).loc main_arg10) : S1024.Idx → EReal) (ix1 e) := by
  rw [arr_lin2B]
  exact shapeCast_a_1a_apply _ _ z e

/-- The whole array: its argument with a leading unit axis added. -/
theorem arr_gain2 :
    (V m c main_v19 : S1x1024.Idx → EReal)
      = shapeCast (s := S1024) (α := EReal) S1x1024
          (m ((c.tc : Thread nD τ).loc main_arg11)) shapeCasts_S1024_S1x1024 := by
  show StableHlo.after hostOps0 (fun b => m (c, b)) (Proc.devRef .tc main_v19) = _
  after_results
  rfl

/-- The second normalisation's gain as a row. -/
theorem V_gain2 (z : Fin 1) (e : Fin 1024) :
    (V m c main_v19 : S1x1024.Idx → EReal) (ix2 z e)
      = (m ((c.tc : Thread nD τ).loc main_arg11) : S1024.Idx → EReal) (ix1 e) := by
  rw [arr_gain2]
  exact shapeCast_a_1a_apply _ _ z e

/-- The whole array: its argument with a leading unit axis added. -/
theorem arr_off2 :
    (V m c main_v20 : S1x1024.Idx → EReal)
      = shapeCast (s := S1024) (α := EReal) S1x1024
          (m ((c.tc : Thread nD τ).loc main_arg12)) shapeCasts_S1024_S1x1024 := by
  show StableHlo.after hostOps0 (fun b => m (c, b)) (Proc.devRef .tc main_v20) = _
  after_results
  rfl

/-- The second normalisation's offset as a row. -/
theorem V_off2 (z : Fin 1) (e : Fin 1024) :
    (V m c main_v20 : S1x1024.Idx → EReal) (ix2 z e)
      = (m ((c.tc : Thread nD τ).loc main_arg12) : S1024.Idx → EReal) (ix1 e) := by
  rw [arr_off2]
  exact shapeCast_a_1a_apply _ _ z e

end Cert.KernelIdeal.HostPrefix

end
-- ==== Proof.AttnValue.lean ====
/-
  The kernel body's first half on one block, read at row `p` and feature `q`: the attention branch added to the
  row and centred and scaled by the first normalisation, before its gain and offset are applied.
-/
import proofs.«149033_j65481071407980_1_alg».proof.Proof.Gen.KernelIdeal.Skeleton
import proofs.«149033_j65481071407980_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnValue

open Idealize.ShloMosaic Idealize.ShloMosaic.ValueIdx Cert.KernelIdeal Cert.KernelIdeal.Gen Cert.TokenBlock

/-- Row `p` of the block plus its attention branch: what the first normalisation is applied to. -/
def preNorm (x0 : Vec Ideal S256x1024 .f32) (x1 : Vec Ideal S1024x1024 .bf16) (x2 : Vec Ideal S1x1024 .f32)
    (x3 : Vec Ideal S1024x1024 .bf16) (x4 : Vec Ideal S1x1024 .f32) (p : Fin 256) (f : Fin 1024) : EReal :=
  x0 (ix2 p f) + attn (fun k => x0 (ix2 p k)) (fun f k => x1 (ix2 k f)) (fun f => x2 (ix2 0 f))
    (fun f k => x3 (ix2 k f)) (fun f => x4 (ix2 0 f)) f

/-! ## The block's matrix product read at an index -/

theorem lhs_dot_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_dot_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_dot_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_dot_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256,1024] by [1024,1024] product into the zero splat, at (p, f): the sum over the shared axis. -/
theorem matmul_zero_ix (a : FVec Ideal S256x1024 .bf16) (b : FVec Ideal S1024x1024 .bf16) (p : Fin 256) (f : Fin 1024) :
    matmul dot_S256x1024_S1024x1024_S256x1024_1_0_0_1_n_n none a b (constant (F := Ideal) S256x1024 .f32 0x00000000#32) (ix2 p f)
      = ∑ k : Fin 1024, a (ix2 p k) * b (ix2 k f) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p f) ((ValueIdx.contrEquiv1 dot_S256x1024_S1024x1024_S256x1024_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S256x1024_S1024x1024_S256x1024_1_0_0_1_n_n.rhsIdx (ix2 p f) ((ValueIdx.contrEquiv1 dot_S256x1024_S1024x1024_S256x1024_1_0_0_1_n_n 1024 rfl rfl).symm k) = ix2 k f := funext fun a => Fin.ext (by
    match a with
    | ⟨0, _⟩ => exact (rhs_dot_0 _ _).trans hk
    | ⟨1, _⟩ => exact rhs_dot_1 _ _)
  rw [el, er]

/-! ## A vector as a column, a column spread over the rows, and a row's sum -/

/-- An `[a]` array cast to the column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry of row `i`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The lane sum of a [256,1024] vector at row `p`: the sum of that row. -/
theorem rowSum_apply (src : FVec Ideal S256x1024 .f32) (p : Fin 256) :
    multiReduction .add [1] S256 src 0x00000000#32 reduces_S256x1024_S256 (.inl rfl) rfl (ix1 p)
      = ∑ k : Fin 1024, src (ix2 p k) := by
  refine (Ideal.multiReduction_add_single src 0x00000000#32 reduces_S256x1024_S256 (.inl rfl) rfl (ix1 p)).trans ?_
  refine Finset.sum_congr rfl fun k _ => congrArg src ?_
  funext a
  match a with
  | ⟨0, _⟩ => rfl
  | ⟨1, _⟩ => rfl

/-! ## Centring and scaling a [256,1024] vector row by row -/

/-- Each row's sum divided by the float 1024, as a column. -/
def colMean (y : FVec Ideal S256x1024 .f32) : FVec Ideal S256x1 .f32 :=
  divf (shapeCast S256x1 (multiReduction .add [1] S256 y 0x00000000#32 reduces_S256x1024_S256 (.inl rfl) rfl) shapeCasts_S256_S256x1)
    (broadcast S256x1 (Scalar.ofBits (F := Ideal) .f32 0x44800000#32))

/-- Each entry minus its row's mean. -/
def centred (y : FVec Ideal S256x1024 .f32) : FVec Ideal S256x1024 .f32 :=
  subf y (broadcastTo S256x1024 (colMean y) broadcasts_S256x1_S256x1024)

/-- The centred vector times the reciprocal root of its rows' variance plus the small float. -/
def lnCore (y : FVec Ideal S256x1024 .f32) : FVec Ideal S256x1024 .f32 :=
  mulf (centred y)
    (broadcastTo S256x1024
      (rsqrt (addf (colMean (mulf (centred y) (centred y))) (broadcast S256x1 (Scalar.ofBits (F := Ideal) .f32 0x3727C5AC#32))))
      broadcasts_S256x1_S256x1024)

/-- The column of means at row `p` is the mean of row `p`. -/
theorem colMean_apply (y : FVec Ideal S256x1024 .f32) (Y : Fin 256 → Fin 1024 → EReal)
    (hY : ∀ p f, y (ix2 p f) = Y p f) (p : Fin 256) (u : Fin 1) : colMean y (ix2 p u) = mean (Y p) := by
  unfold colMean mean
  rw [divf_apply, shapeCast_a_a1_apply, rowSum_apply, broadcast_apply]
  refine congrArg₂ Ideal.div (Finset.sum_congr rfl fun k _ => hY p k) rfl

/-- The centred vector at (p, f). -/
theorem centred_apply (y : FVec Ideal S256x1024 .f32) (Y : Fin 256 → Fin 1024 → EReal)
    (hY : ∀ p f, y (ix2 p f) = Y p f) (p : Fin 256) (f : Fin 1024) : centred y (ix2 p f) = Y p f - mean (Y p) := by
  unfold centred
  rw [subf_apply, broadcastTo_a1_ab_apply, colMean_apply y Y hY, hY]

/-- The centred and scaled vector at (p, q). -/
theorem lnCore_apply (y : FVec Ideal S256x1024 .f32) (Y : Fin 256 → Fin 1024 → EReal)
    (hY : ∀ p f, y (ix2 p f) = Y p f) (p : Fin 256) (q : Fin 1024) :
    lnCore y (ix2 p q) = (Y p q - mean (Y p)) * Ideal.rsqrt (var (Y p) + eps) := by
  unfold lnCore
  rw [mulf_apply, centred_apply y Y hY, broadcastTo_a1_ab_apply]
  refine congrArg (fun z => (Y p q - mean (Y p)) * z) ?_
  show Ideal.rsqrt (colMean (mulf (centred y) (centred y)) (ix2 p (0 : Fin 1)) + Ideal.ofBits .f32 0x3727C5AC#32) = _
  rw [colMean_apply (mulf (centred y) (centred y)) (fun p k => (Y p k - mean (Y p)) * (Y p k - mean (Y p)))
    (fun p f => by rw [mulf_apply, centred_apply y Y hY])]
  rfl

/-! ## The attention branch of a block -/

/-- The block times the projection weights (the kernel's first product). -/
def projVec (x0 : Vec Ideal S256x1024 .f32) (x1 : Vec Ideal S1024x1024 .bf16) : FVec Ideal S256x1024 .f32 :=
  matmul dot_S256x1024_S1024x1024_S256x1024_1_0_0_1_n_n none
    (truncf .bf16 (shapeCast S256x1024 x0 shapeCasts_S256x1024_S256x1024 : FVec Ideal S256x1024 .f32) bitsLt_bf16_f32)
    (shapeCast S1024x1024 x1 shapeCasts_S1024x1024_S1024x1024 : FVec Ideal S1024x1024 .bf16)
    (constant (F := Ideal) S256x1024 .f32 0x00000000#32)

/-- Its cosines times the shared row of factors. -/
def queryVec (x0 : Vec Ideal S256x1024 .f32) (x1 : Vec Ideal S1024x1024 .bf16) (x2 : Vec Ideal S1x1024 .f32) :
    FVec Ideal S256x1024 .f32 :=
  mulf (cos (projVec x0 x1))
    (broadcastTo S256x1024 (shapeCast S1x1024 x2 shapeCasts_S1x1024_S1x1024 : FVec Ideal S1x1024 .f32) broadcasts_S1x1024_S256x1024)

/-- The block plus its attention branch: the vector the first normalisation is applied to. -/
def preVec (x0 : Vec Ideal S256x1024 .f32) (x1 : Vec Ideal S1024x1024 .bf16) (x2 : Vec Ideal S1x1024 .f32)
    (x3 : Vec Ideal S1024x1024 .bf16) (x4 : Vec Ideal S1x1024 .f32) : FVec Ideal S256x1024 .f32 :=
  addf (shapeCast S256x1024 x0 shapeCasts_S256x1024_S256x1024 : FVec Ideal S256x1024 .f32)
    (addf
      (matmul dot_S256x1024_S1024x1024_S256x1024_1_0_0_1_n_n none
        (truncf .bf16 (queryVec x0 x1 x2) bitsLt_bf16_f32)
        (shapeCast S1024x1024 x3 shapeCasts_S1024x1024_S1024x1024 : FVec Ideal S1024x1024 .bf16)
        (constant (F := Ideal) S256x1024 .f32 0x00000000#32))
      (broadcastTo S256x1024 (shapeCast S1x1024 x4 shapeCasts_S1x1024_S1x1024 : FVec Ideal S1x1024 .f32) broadcasts_S1x1024_S256x1024))

/-- The first product at (p, f): row `p` of the block against column `f` of the weights. -/
theorem projVec_apply (x0 : Vec Ideal S256x1024 .f32) (x1 : Vec Ideal S1024x1024 .bf16) (p : Fin 256) (f : Fin 1024) :
    projVec x0 x1 (ix2 p f) = ∑ k : Fin 1024, x0 (ix2 p k) * x1 (ix2 k f) := by
  unfold projVec
  rw [matmul_zero_ix, shapeCast_self, shapeCast_self]
  rfl

/-- The scaled cosines at (p, k). -/
theorem queryVec_apply (x0 : Vec Ideal S256x1024 .f32) (x1 : Vec Ideal S1024x1024 .bf16) (x2 : Vec Ideal S1x1024 .f32)
    (p : Fin 256) (k : Fin 1024) :
    queryVec x0 x1 x2 (ix2 p k) = Ideal.cos (∑ j : Fin 1024, x0 (ix2 p j) * x1 (ix2 j k)) * x2 (ix2 (0 : Fin 1) k) := by
  unfold queryVec
  rw [mulf_apply, broadcastTo_1b_ab_apply, shapeCast_self]
  show Ideal.cos (projVec x0 x1 (ix2 p k)) * _ = _
  rw [projVec_apply]

/-- The pre-normalisation vector at (p, f) is the specification's row. -/
theorem preVec_apply (x0 : Vec Ideal S256x1024 .f32) (x1 : Vec Ideal S1024x1024 .bf16) (x2 : Vec Ideal S1x1024 .f32)
    (x3 : Vec Ideal S1024x1024 .bf16) (x4 : Vec Ideal S1x1024 .f32) (p : Fin 256) (f : Fin 1024) :
    preVec x0 x1 x2 x3 x4 (ix2 p f) = preNorm x0 x1 x2 x3 x4 p f := by
  unfold preVec preNorm attn linT
  rw [addf_apply, addf_apply, matmul_zero_ix, broadcastTo_1b_ab_apply, shapeCast_self, shapeCast_self, shapeCast_self]
  refine congrArg₂ (· + ·) rfl (congrArg₂ (· + ·) (Finset.sum_congr rfl fun k _ => ?_) rfl)
  show queryVec x0 x1 x2 (ix2 p k) * _ = _
  rw [queryVec_apply]

/-! ## The payload

The generated payload is, term for term, the centring and scaling of the pre-normalisation vector. -/

/-- The first payload at (p, q): the pre-normalisation row centred and scaled. -/
theorem pay2_apply (x0 : Vec Ideal S256x1024 .f32) (x1 : Vec Ideal S1024x1024 .bf16) (x2 : Vec Ideal S1x1024 .f32)
    (x3 : Vec Ideal S1024x1024 .bf16) (x4 : Vec Ideal S1x1024 .f32) (p : Fin 256) (q : Fin 1024) :
    k0_pay2 (F := Ideal) x0 x1 x2 x3 x4 (ix2 p q)
      = (preNorm x0 x1 x2 x3 x4 p q - mean (preNorm x0 x1 x2 x3 x4 p))
          * Ideal.rsqrt (var (preNorm x0 x1 x2 x3 x4 p) + eps) := by
  have e : k0_pay2 (F := Ideal) x0 x1 x2 x3 x4 = lnCore (preVec x0 x1 x2 x3 x4) := rfl
  rw [e]
  exact lnCore_apply (preVec x0 x1 x2 x3 x4) (preNorm x0 x1 x2 x3 x4) (fun p f => preVec_apply x0 x1 x2 x3 x4 p f) p q

end Cert.KernelIdeal.AttnValue

end
-- ==== Proof.FfnValue.lean ====
/-
  The kernel body's second half on one block, read at row `p` and feature `q`: from the centred and scaled row
  `u` and the first normalisation's gain `g` and offset `o`, the normalised row h = u · g + o, its feed-forward
  branch, and the second normalisation of their sum.
-/
import proofs.«149033_j65481071407980_1_alg».proof.Proof.Gen.KernelIdeal.Skeleton
import proofs.«149033_j65481071407980_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.FfnValue

open Idealize.ShloMosaic Idealize.ShloMosaic.ValueIdx Cert.KernelIdeal Cert.KernelIdeal.Gen Cert.TokenBlock

/-- Row `p` after the first normalisation: the centred and scaled row times the gain plus the offset. -/
def normed (u : FVec Ideal S256x1024 .f32) (g : FVec Ideal S1x1024 .f32) (o : Vec Ideal S1x1024 .f32)
    (p : Fin 256) (f : Fin 1024) : EReal :=
  u (ix2 p f) * g (ix2 0 f) + o (ix2 0 f)

/-! ## The two products' operand indices -/

/-- Into the hidden layer: the left operand is read at the result's row and the contracted feature, the right at the
    contracted feature and the result's column (the next four lemmas, one per operand axis). -/
theorem lhs_up_0 (i : S256x4096.Idx) (q : dot_S256x32_S32x4096_S256x4096_1_0_0_1_n_n.contr.Idx) :
    (dot_S256x32_S32x4096_S256x4096_1_0_0_1_n_n.lhsIdx i q 0).val = (i 0).val := by
  unfold DotDims.lhsIdx
  rw [dif_neg (show ¬(0 : Fin S256x32.rank) ∈ dot_S256x32_S32x4096_S256x4096_1_0_0_1_n_n.lhsBatch by decide), dif_pos (show (0 : Fin S256x32.rank) ∈ dot_S256x32_S32x4096_S256x4096_1_0_0_1_n_n.lhsNonContracting by decide)]
  rfl
theorem lhs_up_1 (i : S256x4096.Idx) (q : dot_S256x32_S32x4096_S256x4096_1_0_0_1_n_n.contr.Idx) :
    (dot_S256x32_S32x4096_S256x4096_1_0_0_1_n_n.lhsIdx i q 1).val = (q ⟨0, by decide⟩).val :=
  dot_S256x32_S32x4096_S256x4096_1_0_0_1_n_n.lhsIdx_val_of_single rfl i q
theorem rhs_up_0 (i : S256x4096.Idx) (q : dot_S256x32_S32x4096_S256x4096_1_0_0_1_n_n.contr.Idx) :
    (dot_S256x32_S32x4096_S256x4096_1_0_0_1_n_n.rhsIdx i q 0).val = (q ⟨0, by decide⟩).val :=
  dot_S256x32_S32x4096_S256x4096_1_0_0_1_n_n.rhsIdx_val_of_single rfl i q
theorem rhs_up_1 (i : S256x4096.Idx) (q : dot_S256x32_S32x4096_S256x4096_1_0_0_1_n_n.contr.Idx) :
    (dot_S256x32_S32x4096_S256x4096_1_0_0_1_n_n.rhsIdx i q 1).val = (i 1).val := by
  unfold DotDims.rhsIdx
  rw [dif_neg (show ¬(1 : Fin S32x4096.rank) ∈ dot_S256x32_S32x4096_S256x4096_1_0_0_1_n_n.rhsBatch by decide), dif_pos (show (1 : Fin S32x4096.rank) ∈ dot_S256x32_S32x4096_S256x4096_1_0_0_1_n_n.rhsNonContracting by decide)]
  rfl

/-- The product into the hidden layer at (p, j): the sum over the 32 contracted features. -/
theorem up_apply (a : FVec Ideal S256x32 .bf16) (b : FVec Ideal S32x4096 .bf16) (p : Fin 256) (j : Fin 4096) :
    matmul dot_S256x32_S32x4096_S256x4096_1_0_0_1_n_n none a b (constant (F := Ideal) S256x4096 .f32 0x00000000#32) (ix2 p j)
      = ∑ w : Fin 32, a (ix2 p w) * b (ix2 w j) := by
  show FloatOps.matmul dot_S256x32_S32x4096_S256x4096_1_0_0_1_n_n none a b (constant (F := Ideal) S256x4096 .f32 0x00000000#32) (ix2 p j) = _
  rw [Ideal.matmul_constant_zero_apply, ← Equiv.sum_comp (ValueIdx.contrEquiv1 dot_S256x32_S32x4096_S256x4096_1_0_0_1_n_n 32 rfl rfl).symm]
  refine Finset.sum_congr rfl fun k _ => ?_
  have hk := ValueIdx.contrEquiv1_symm_val dot_S256x32_S32x4096_S256x4096_1_0_0_1_n_n 32 rfl rfl k
  have el : dot_S256x32_S32x4096_S256x4096_1_0_0_1_n_n.lhsIdx (ix2 p j) ((ValueIdx.contrEquiv1 dot_S256x32_S32x4096_S256x4096_1_0_0_1_n_n 32 rfl rfl).symm k) = ix2 p k := funext fun ax => Fin.ext (by
    match ax with
    | ⟨0, _⟩ => exact lhs_up_0 _ _
    | ⟨1, _⟩ => exact (lhs_up_1 _ _).trans hk)
  have er : dot_S256x32_S32x4096_S256x4096_1_0_0_1_n_n.rhsIdx (ix2 p j) ((ValueIdx.contrEquiv1 dot_S256x32_S32x4096_S256x4096_1_0_0_1_n_n 32 rfl rfl).symm k) = ix2 k j := funext fun ax => Fin.ext (by
    match ax with
    | ⟨0, _⟩ => exact (rhs_up_0 _ _).trans hk
    | ⟨1, _⟩ => exact rhs_up_1 _ _)
  rw [el, er]

/-- Out of the hidden layer: the same four readings, over the 4096 hidden units. -/
theorem lhs_down_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem lhs_down_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
theorem rhs_down_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
theorem rhs_down_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The product out of the hidden layer at (p, e): the sum over the 4096 hidden units. -/
theorem down_apply (a : FVec Ideal S256x4096 .bf16) (b : FVec Ideal S4096x1024 .bf16) (p : Fin 256) (e : Fin 1024) :
    matmul dot_S256x4096_S4096x1024_S256x1024_1_0_0_1_n_n none a b (constant (F := Ideal) S256x1024 .f32 0x00000000#32) (ix2 p e)
      = ∑ j : Fin 4096, a (ix2 p j) * b (ix2 j e) := by
  show FloatOps.matmul dot_S256x4096_S4096x1024_S256x1024_1_0_0_1_n_n none a b (constant (F := Ideal) S256x1024 .f32 0x00000000#32) (ix2 p e) = _
  rw [Ideal.matmul_constant_zero_apply, ← Equiv.sum_comp (ValueIdx.contrEquiv1 dot_S256x4096_S4096x1024_S256x1024_1_0_0_1_n_n 4096 rfl rfl).symm]
  refine Finset.sum_congr rfl fun k _ => ?_
  have hk := ValueIdx.contrEquiv1_symm_val dot_S256x4096_S4096x1024_S256x1024_1_0_0_1_n_n 4096 rfl rfl k
  have el : dot_S256x4096_S4096x1024_S256x1024_1_0_0_1_n_n.lhsIdx (ix2 p e) ((ValueIdx.contrEquiv1 dot_S256x4096_S4096x1024_S256x1024_1_0_0_1_n_n 4096 rfl rfl).symm k) = ix2 p k := funext fun ax => Fin.ext (by
    match ax with
    | ⟨0, _⟩ => exact lhs_down_0 _ _
    | ⟨1, _⟩ => exact (lhs_down_1 _ _).trans hk)
  have er : dot_S256x4096_S4096x1024_S256x1024_1_0_0_1_n_n.rhsIdx (ix2 p e) ((ValueIdx.contrEquiv1 dot_S256x4096_S4096x1024_S256x1024_1_0_0_1_n_n 4096 rfl rfl).symm k) = ix2 k e := funext fun ax => Fin.ext (by
    match ax with
    | ⟨0, _⟩ => exact (rhs_down_0 _ _).trans hk
    | ⟨1, _⟩ => exact rhs_down_1 _ _)
  rw [el, er]

/-! ## A column of row statistics: the cast [a] → [a, 1], the broadcast [a, 1] → [a, b], a row's sum and mean -/

/-- A vector [a] cast to the column [a, 1] reads, at (i, z), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) (z : Fin 1) :
    broadcastTo ⟨2, ![a, b]⟩ v h (ix2 p c) = v (ix2 p z) := by
  have hz : z.val = 0 := by omega
  refine broadcastTo_apply v h (ix2 p c) (ix2 p z) fun ax => ?_
  match ax with
  | ⟨0, _⟩ =>
    show p.val = if a = 1 then 0 else p.val
    split
    · have := p.isLt; omega
    · rfl
  | ⟨1, _⟩ =>
    show z.val = if (1 : ℕ) = 1 then 0 else c.val
    rw [if_pos rfl, hz]

/-- The lane sum of a [256, 1024] block at row p is the sum of that row. -/
theorem rowSum_apply (y : FVec Ideal S256x1024 .f32) (p : Fin 256) :
    multiReduction (F := Ideal) .add [1] S256 y 0x00000000#32 reduces_S256x1024_S256 (.inl rfl) rfl (ix1 p)
      = ∑ k : Fin 1024, y (ix2 p k) := by
  refine (Ideal.multiReduction_add_single y 0x00000000#32 reduces_S256x1024_S256 (.inl rfl) rfl (ix1 p)).trans ?_
  refine Finset.sum_congr rfl fun k _ => congrArg y (funext fun ax => ?_)
  match ax with
  | ⟨0, _⟩ => rfl
  | ⟨1, _⟩ => rfl

/-- The column of row means of a [256, 1024] block: its entry at row p is the mean of that row. -/
theorem rowMean_apply (y : FVec Ideal S256x1024 .f32) (p : Fin 256) (z : Fin 1) :
    divf (shapeCast S256x1 (multiReduction (F := Ideal) .add [1] S256 y 0x00000000#32 reduces_S256x1024_S256 (.inl rfl) rfl) shapeCasts_S256_S256x1)
        (broadcast S256x1 (Scalar.ofBits (F := Ideal) .f32 0x44800000#32)) (ix2 p z)
      = mean (fun k => y (ix2 p k)) := by
  show Ideal.div (shapeCast S256x1 (multiReduction (F := Ideal) .add [1] S256 y 0x00000000#32 reduces_S256x1024_S256 (.inl rfl) rfl) shapeCasts_S256_S256x1 (ix2 p z)) width = _
  rw [shapeCast_a_a1_apply, rowSum_apply]
  rfl

/-! ## The block's values, named: the normalised rows, the hidden layer, the feed-forward branch -/

/-- The normalised block: the centred and scaled rows times the gain row plus the offset row. -/
def rowsVec (u : FVec Ideal S256x1024 .f32) (g : FVec Ideal S1x1024 .f32) (o : Vec Ideal S1x1024 .f32) :
    FVec Ideal S256x1024 .f32 :=
  addf (mulf u (broadcastTo S256x1024 g broadcasts_S1x1024_S256x1024))
    (broadcastTo S256x1024 (shapeCast S1x1024 o shapeCasts_S1x1024_S1x1024) broadcasts_S1x1024_S256x1024)

theorem rowsVec_apply (u : FVec Ideal S256x1024 .f32) (g : FVec Ideal S1x1024 .f32) (o : Vec Ideal S1x1024 .f32)
    (p : Fin 256) (f : Fin 1024) : rowsVec u g o (ix2 p f) = normed u g o p f := by
  show u (ix2 p f) * broadcastTo S256x1024 g broadcasts_S1x1024_S256x1024 (ix2 p f)
      + broadcastTo S256x1024 (shapeCast S1x1024 o shapeCasts_S1x1024_S1x1024) broadcasts_S1x1024_S256x1024 (ix2 p f) = _
  rw [broadcastTo_1b_ab_apply, broadcastTo_1b_ab_apply, shapeCast_self]
  rfl

/-- The hidden block of a block of rows `h`: cosines of the first 32 columns, the product with the weights, the bias
    row, the positive part. -/
def hiddenVec (h : FVec Ideal S256x1024 .f32) (x7 : Vec Ideal S32x4096 .bf16) (x8 : Vec Ideal S1x4096 .f32) :
    FVec Ideal S256x4096 .f32 :=
  maximumf
    (addf
      (matmul (φ₂ := .bf16) dot_S256x32_S32x4096_S256x4096_1_0_0_1_n_n none
        (truncf .bf16 (cos (extractStridedSlice S256x32 ![0, 0] h slices_S256x1024_o0_0_S256x32)) bitsLt_bf16_f32)
        (shapeCast S32x4096 x7 shapeCasts_S32x4096_S32x4096) (constant S256x4096 .f32 0x00000000#32))
      (broadcastTo S256x4096 (shapeCast S1x4096 x8 shapeCasts_S1x4096_S1x4096) broadcasts_S1x4096_S256x4096))
    (broadcast S256x4096 (Scalar.ofBits .f32 0x00000000#32))

theorem hiddenVec_apply (h : FVec Ideal S256x1024 .f32) (x7 : Vec Ideal S32x4096 .bf16) (x8 : Vec Ideal S1x4096 .f32)
    (p : Fin 256) (j : Fin 4096) :
    hiddenVec h x7 x8 (ix2 p j)
      = hidden (fun f => h (ix2 p f)) (fun j w => x7 (ix2 w j)) (fun j => x8 (ix2 0 j)) j := by
  show max
      (matmul (φ₂ := .bf16) dot_S256x32_S32x4096_S256x4096_1_0_0_1_n_n none
          (truncf .bf16 (cos (extractStridedSlice S256x32 ![0, 0] h slices_S256x1024_o0_0_S256x32)) bitsLt_bf16_f32)
          (shapeCast S32x4096 x7 shapeCasts_S32x4096_S32x4096) (constant (F := Ideal) S256x4096 .f32 0x00000000#32) (ix2 p j)
        + broadcastTo S256x4096 (shapeCast S1x4096 x8 shapeCasts_S1x4096_S1x4096) broadcasts_S1x4096_S256x4096 (ix2 p j))
      (Ideal.ofBits .f32 0x00000000#32) = _
  rw [up_apply, broadcastTo_1b_ab_apply, shapeCast_self, shapeCast_self, Ideal.ofBits_zero_f32]
  unfold Cert.TokenBlock.hidden Cert.TokenBlock.linT
  refine congrArg (fun s => max (s + x8 (ix2 0 j)) 0) (Finset.sum_congr rfl fun w _ => ?_)
  refine congrArg (fun c => Ideal.cos c * x7 (ix2 w j)) ?_
  exact extractStridedSlice_apply _ h slices_S256x1024_o0_0_S256x32 (ix2 p w) (ix2 p (Fin.castLE (by decide) w)) (fun ax => by
    match ax with
    | ⟨0, _⟩ => exact (Nat.zero_add _).symm
    | ⟨1, _⟩ => exact (Nat.zero_add _).symm)

/-- The feed-forward branch of a hidden block: the product with the second weights plus the bias row. -/
def ffnVec (hid : FVec Ideal S256x4096 .f32) (x9 : Vec Ideal S4096x1024 .bf16) (x10 : Vec Ideal S1x1024 .f32) :
    FVec Ideal S256x1024 .f32 :=
  addf
    (matmul (φ₂ := .bf16) dot_S256x4096_S4096x1024_S256x1024_1_0_0_1_n_n none (truncf .bf16 hid bitsLt_bf16_f32)
      (shapeCast S4096x1024 x9 shapeCasts_S4096x1024_S4096x1024) (constant S256x1024 .f32 0x00000000#32))
    (broadcastTo S256x1024 (shapeCast S1x1024 x10 shapeCasts_S1x1024_S1x1024) broadcasts_S1x1024_S256x1024)

theorem ffnVec_apply (hid : FVec Ideal S256x4096 .f32) (x9 : Vec Ideal S4096x1024 .bf16) (x10 : Vec Ideal S1x1024 .f32)
    (p : Fin 256) (e : Fin 1024) :
    ffnVec hid x9 x10 (ix2 p e) = linT (fun j => hid (ix2 p j)) (fun e j => x9 (ix2 j e)) e + x10 (ix2 0 e) := by
  show matmul (φ₂ := .bf16) dot_S256x4096_S4096x1024_S256x1024_1_0_0_1_n_n none (truncf .bf16 hid bitsLt_bf16_f32)
        (shapeCast S4096x1024 x9 shapeCasts_S4096x1024_S4096x1024) (constant (F := Ideal) S256x1024 .f32 0x00000000#32) (ix2 p e)
      + broadcastTo S256x1024 (shapeCast S1x1024 x10 shapeCasts_S1x1024_S1x1024) broadcasts_S1x1024_S256x1024 (ix2 p e) = _
  rw [down_apply, broadcastTo_1b_ab_apply, shapeCast_self, shapeCast_self]
  rfl

/-- Row p of the sum the second normalisation is taken of: the normalised row plus its feed-forward branch. -/
def resid (u : FVec Ideal S256x1024 .f32) (g : FVec Ideal S1x1024 .f32) (o : Vec Ideal S1x1024 .f32)
    (x7 : Vec Ideal S32x4096 .bf16) (x8 : Vec Ideal S1x4096 .f32) (x9 : Vec Ideal S4096x1024 .bf16)
    (x10 : Vec Ideal S1x1024 .f32) (p : Fin 256) (e : Fin 1024) : EReal :=
  normed u g o p e
    + ffn (normed u g o p) (fun j w => x7 (ix2 w j)) (fun j => x8 (ix2 0 j)) (fun e j => x9 (ix2 j e))
        (fun e => x10 (ix2 0 e)) e

section Payloads
variable (u : FVec Ideal S256x1024 .f32) (g : FVec Ideal S1x1024 .f32) (o : Vec Ideal S1x1024 .f32)
  (x7 : Vec Ideal S32x4096 .bf16) (x8 : Vec Ideal S1x4096 .f32) (x9 : Vec Ideal S4096x1024 .bf16)
  (x10 : Vec Ideal S1x1024 .f32)

theorem pay4_eq :
    k0_pay4 (F := Ideal) u g o x7 x8 x9 x10
      = addf (rowsVec u g o) (ffnVec (hiddenVec (rowsVec u g o) x7 x8) x9 x10) := rfl

/-- The sum before the second normalisation at (p, e). -/
theorem pay4_apply (p : Fin 256) (e : Fin 1024) :
    k0_pay4 (F := Ideal) u g o x7 x8 x9 x10 (ix2 p e) = resid u g o x7 x8 x9 x10 p e := by
  rw [pay4_eq]
  show rowsVec u g o (ix2 p e) + ffnVec (hiddenVec (rowsVec u g o) x7 x8) x9 x10 (ix2 p e) = _
  rw [rowsVec_apply, ffnVec_apply]
  have hrow : (fun f => rowsVec u g o (ix2 p f)) = normed u g o p := funext fun f => rowsVec_apply u g o p f
  have hhid : (fun j => hiddenVec (rowsVec u g o) x7 x8 (ix2 p j))
      = hidden (normed u g o p) (fun j w => x7 (ix2 w j)) (fun j => x8 (ix2 0 j)) :=
    funext fun j => (hiddenVec_apply (rowsVec u g o) x7 x8 p j).trans (by rw [hrow])
  rw [hhid]
  rfl

/-- The column of means at row p: the mean of that row of the sum. -/
theorem pay5_apply (p : Fin 256) (z : Fin 1) :
    k0_pay5 (F := Ideal) u g o x7 x8 x9 x10 (ix2 p z) = mean (resid u g o x7 x8 x9 x10 p) := by
  refine (rowMean_apply (k0_pay4 (F := Ideal) u g o x7 x8 x9 x10) p z).trans ?_
  exact congrArg mean (funext fun k => pay4_apply u g o x7 x8 x9 x10 p k)

/-- The centred sum at (p, e). -/
theorem pay6_apply (p : Fin 256) (e : Fin 1024) :
    k0_pay6 (F := Ideal) u g o x7 x8 x9 x10 (ix2 p e)
      = resid u g o x7 x8 x9 x10 p e - mean (resid u g o x7 x8 x9 x10 p) := by
  show k0_pay4 (F := Ideal) u g o x7 x8 x9 x10 (ix2 p e)
      - broadcastTo S256x1024 (k0_pay5 (F := Ideal) u g o x7 x8 x9 x10) broadcasts_S256x1_S256x1024 (ix2 p e) = _
  rw [broadcastTo_a1_ab_apply _ _ p e 0, pay5_apply, pay4_apply]

theorem pay7_eq :
    k0_pay7 (F := Ideal) u g o x7 x8 x9 x10
      = addf
          (divf (shapeCast S256x1 (multiReduction (F := Ideal) .add [1] S256
              (mulf (k0_pay6 (F := Ideal) u g o x7 x8 x9 x10) (k0_pay6 (F := Ideal) u g o x7 x8 x9 x10))
              0x00000000#32 reduces_S256x1024_S256 (.inl rfl) rfl) shapeCasts_S256_S256x1)
            (broadcast S256x1 (Scalar.ofBits (F := Ideal) .f32 0x44800000#32)))
          (broadcast S256x1 (Scalar.ofBits (F := Ideal) .f32 0x3727C5AC#32)) := rfl

/-- The column of variances plus the small constant at row p. -/
theorem pay7_apply (p : Fin 256) (z : Fin 1) :
    k0_pay7 (F := Ideal) u g o x7 x8 x9 x10 (ix2 p z) = var (resid u g o x7 x8 x9 x10 p) + eps := by
  rw [pay7_eq]
  refine congrArg (· + eps) ((rowMean_apply _ p z).trans ?_)
  refine congrArg mean (funext fun k => ?_)
  show k0_pay6 (F := Ideal) u g o x7 x8 x9 x10 (ix2 p k) * k0_pay6 (F := Ideal) u g o x7 x8 x9 x10 (ix2 p k) = _
  rw [pay6_apply]

end Payloads

/-- The stored value at (p, q): the second normalisation of the normalised row plus its feed-forward branch. -/
theorem pay1_apply (u : FVec Ideal S256x1024 .f32) (g : FVec Ideal S1x1024 .f32) (o : Vec Ideal S1x1024 .f32)
    (x7 : Vec Ideal S32x4096 .bf16) (x8 : Vec Ideal S1x4096 .f32) (x9 : Vec Ideal S4096x1024 .bf16)
    (x10 x11 x12 : Vec Ideal S1x1024 .f32) (p : Fin 256) (q : Fin 1024) :
    k0_pay1 (F := Ideal) (k0_pay6 u g o x7 x8 x9 x10) (k0_pay7 u g o x7 x8 x9 x10) x11 x12 (ix2 p q)
      = layerNorm (fun e => normed u g o p e
            + ffn (normed u g o p) (fun j w => x7 (ix2 w j)) (fun j => x8 (ix2 0 j)) (fun e j => x9 (ix2 j e))
                (fun e => x10 (ix2 0 e)) e)
          (fun e => x11 (ix2 0 e)) (fun e => x12 (ix2 0 e)) q := by
  show k0_pay6 (F := Ideal) u g o x7 x8 x9 x10 (ix2 p q)
          * broadcastTo S256x1024 (rsqrt (k0_pay7 (F := Ideal) u g o x7 x8 x9 x10)) broadcasts_S256x1_S256x1024 (ix2 p q)
        * broadcastTo S256x1024 (shapeCast S1x1024 x11 shapeCasts_S1x1024_S1x1024) broadcasts_S1x1024_S256x1024 (ix2 p q)
      + broadcastTo S256x1024 (shapeCast S1x1024 x12 shapeCasts_S1x1024_S1x1024) broadcasts_S1x1024_S256x1024 (ix2 p q)
    = layerNorm (resid u g o x7 x8 x9 x10 p) (fun e => x11 (ix2 0 e)) (fun e => x12 (ix2 0 e)) q
  rw [broadcastTo_a1_ab_apply _ _ p q 0, broadcastTo_1b_ab_apply, broadcastTo_1b_ab_apply, shapeCast_self, shapeCast_self,
    pay6_apply]
  show (resid u g o x7 x8 x9 x10 p q - mean (resid u g o x7 x8 x9 x10 p))
        * Ideal.rsqrt (k0_pay7 (F := Ideal) u g o x7 x8 x9 x10 (ix2 p 0)) * x11 (ix2 0 q) + x12 (ix2 0 q) = _
  rw [pay7_apply]
  rfl

end Cert.KernelIdeal.FfnValue

end
-- ==== Proof.BlockValue.lean ====
/-
  The kernel body on one block, read at row `p` and feature `q`, is the row function `tok` of row `p` of the token
  block, with each weight block read transposed and each bias or gain block read along its one row.

  The body's first half leaves the centred and scaled pre-normalisation row; times the gain plus the offset it is the
  specification's `mid` of the row. The second half, for any such row, is the second normalisation of the row plus its
  feed-forward branch: `tok` by definition.
-/
import proofs.«149033_j65481071407980_1_alg».proof.Proof.AttnValue
import proofs.«149033_j65481071407980_1_alg».proof.Proof.FfnValue

noncomputable section

namespace Cert.KernelIdeal.BlockValue

open Idealize.ShloMosaic Idealize.ShloMosaic.ValueIdx Cert.KernelIdeal Cert.KernelIdeal.Gen Cert.TokenBlock

/-- Row `p` after the body's first normalisation is the specification's `mid` of row `p`. -/
theorem normed_eq_mid (x0 : Vec Ideal S256x1024 .f32) (x1 : Vec Ideal S1024x1024 .bf16) (x2 : Vec Ideal S1x1024 .f32)
    (x3 : Vec Ideal S1024x1024 .bf16) (x4 x5 x6 : Vec Ideal S1x1024 .f32) (p : Fin 256) :
    FfnValue.normed (k0_pay2 (F := Ideal) x0 x1 x2 x3 x4) (k0_pay3 (F := Ideal) x5) x6 p
      = mid (fun k => x0 (ix2 p k)) (fun f k => x1 (ix2 k f)) (fun f => x2 (ix2 0 f)) (fun f k => x3 (ix2 k f))
          (fun f => x4 (ix2 0 f)) (fun f => x5 (ix2 0 f)) (fun f => x6 (ix2 0 f)) := by
  funext f
  unfold FfnValue.normed mid layerNorm
  rw [AttnValue.pay2_apply]
  unfold k0_pay3
  rw [shapeCast_self]
  rfl

/-- What the body stores at (p, q) of the output block, from the thirteen input blocks. -/
theorem block_value (x0 : Vec Ideal S256x1024 .f32) (x1 : Vec Ideal S1024x1024 .bf16) (x2 : Vec Ideal S1x1024 .f32) (x3 : Vec Ideal S1024x1024 .bf16) (x4 x5 x6 : Vec Ideal S1x1024 .f32) (x7 : Vec Ideal S32x4096 .bf16) (x8 : Vec Ideal S1x4096 .f32) (x9 : Vec Ideal S4096x1024 .bf16) (x10 x11 x12 : Vec Ideal S1x1024 .f32) (p : Fin 256) (q : Fin 1024) :
    k0_pay1 (F := Ideal) (k0_pay6 (k0_pay2 x0 x1 x2 x3 x4) (k0_pay3 x5) x6 x7 x8 x9 x10)
        (k0_pay7 (k0_pay2 x0 x1 x2 x3 x4) (k0_pay3 x5) x6 x7 x8 x9 x10) x11 x12 (ix2 p q)
      = tok (fun k => x0 (ix2 p k)) (fun f k => x1 (ix2 k f)) (fun f => x2 (ix2 0 f)) (fun f k => x3 (ix2 k f))
          (fun f => x4 (ix2 0 f)) (fun f => x5 (ix2 0 f)) (fun f => x6 (ix2 0 f)) (fun j w => x7 (ix2 w j))
          (fun j => x8 (ix2 0 j)) (fun e j => x9 (ix2 j e)) (fun e => x10 (ix2 0 e)) (fun e => x11 (ix2 0 e))
          (fun e => x12 (ix2 0 e)) q := by
  rw [FfnValue.pay1_apply, normed_eq_mid]
  rfl

end Cert.KernelIdeal.BlockValue

end
-- ==== Proof.KernelArray.lean ====
/-
  The kernel's result array is `TokenBlock.G` of the argument arrays. Grid point `t` writes rows 256·t … 256·t + 255
  of the token matrix [16384, 1024]; by the block lemma each entry (p, q) of that block is `tok` of the token's row at
  `q`; the 64 blocks cover the matrix; and the last host operation splits the row axis back into (8, 2048), so entry
  (b, s, e) of the result is row 2048·b + s, which is token (b, s).
-/
import proofs.«149033_j65481071407980_1_alg».proof.Proof.Gen.KernelIdeal.Frame
import proofs.«149033_j65481071407980_1_alg».proof.Proof.Spec
import proofs.«149033_j65481071407980_1_alg».proof.Proof.HostPrefix
import proofs.«149033_j65481071407980_1_alg».proof.Proof.BlockValue
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KernelArray

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The printed index maps, decided over the grid. -/
theorem idx_facts : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The grid has 64 points. -/
theorem point_lt (t : Fin cfg0.N) : t.val < 64 := by
  have h := t.isLt
  have hN : cfg0.N = 64 := N_0
  omega

/-- Window 0's block at point t, row p: row 256·t + p of the token matrix. -/
theorem blk_tokens (c : Dev nD) (t : Fin cfg0.N) (p : Fin 256) (k : Fin 1024) :
    (iblk m c 0 t : S256x1024.Idx → EReal) (ix2 p k)
      = (V m c main_v0 : S16384x1024.Idx → EReal) (ix2 ⟨256 * t.val + p.val, by have := point_lt t; omega⟩ k) := by
  obtain ⟨_, _, e0, e1, _⟩ := idx_facts t
  show (V m c main_v0 : S16384x1024.Idx → EReal) (((cfg0.win 0).blk t).view.emb (ix2 p k)) = _
  refine congrArg (V m c main_v0 : S16384x1024.Idx → EReal) ?_
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

/-- Window 1's block is its whole array at every point. -/
theorem blk_proj (c : Dev nD) (t : Fin cfg0.N) (a : Fin 1024) (b : Fin 1024) :
    (iblk m c 1 t : S1024x1024.Idx → EReal) (ix2 a b) = (V m c main_v2 : S1024x1024.Idx → EReal) (ix2 a b) := by
  obtain ⟨_, _, _, _, e0, e1, _⟩ := idx_facts t
  show (V m c main_v2 : S1024x1024.Idx → EReal) (((cfg0.win 1).blk t).view.emb (ix2 a b)) = _
  refine congrArg (V m c main_v2 : S1024x1024.Idx → EReal) ?_
  funext d; apply Fin.ext
  match d with
  | ⟨0, _⟩ => show win0_1.index t (0 : Fin 2) * 1024 + 1 * a.val = a.val; omega
  | ⟨1, _⟩ => show win0_1.index t (1 : Fin 2) * 1024 + 1 * b.val = b.val; omega

/-- Window 2's block is its whole array at every point. -/
theorem blk_factor (c : Dev nD) (t : Fin cfg0.N) (a : Fin 1) (b : Fin 1024) :
    (iblk m c 2 t : S1x1024.Idx → EReal) (ix2 a b) = (V m c main_v13 : S1x1024.Idx → EReal) (ix2 a b) := by
  obtain ⟨_, _, _, _, _, _, e0, e1, _⟩ := idx_facts t
  show (V m c main_v13 : S1x1024.Idx → EReal) (((cfg0.win 2).blk t).view.emb (ix2 a b)) = _
  refine congrArg (V m c main_v13 : S1x1024.Idx → EReal) ?_
  funext d; apply Fin.ext
  match d with
  | ⟨0, _⟩ => show win0_2.index t (0 : Fin 2) * 1 + 1 * a.val = a.val; omega
  | ⟨1, _⟩ => show win0_2.index t (1 : Fin 2) * 1024 + 1 * b.val = b.val; omega

/-- Window 3's block is its whole array at every point. -/
theorem blk_comb (c : Dev nD) (t : Fin cfg0.N) (a : Fin 1024) (b : Fin 1024) :
    (iblk m c 3 t : S1024x1024.Idx → EReal) (ix2 a b) = (V m c main_v4 : S1024x1024.Idx → EReal) (ix2 a b) := by
  obtain ⟨_, _, _, _, _, _, _, _, e0, e1, _⟩ := idx_facts t
  show (V m c main_v4 : S1024x1024.Idx → EReal) (((cfg0.win 3).blk t).view.emb (ix2 a b)) = _
  refine congrArg (V m c main_v4 : S1024x1024.Idx → EReal) ?_
  funext d; apply Fin.ext
  match d with
  | ⟨0, _⟩ => show win0_3.index t (0 : Fin 2) * 1024 + 1 * a.val = a.val; omega
  | ⟨1, _⟩ => show win0_3.index t (1 : Fin 2) * 1024 + 1 * b.val = b.val; omega

/-- Window 4's block is its whole array at every point. -/
theorem blk_combB (c : Dev nD) (t : Fin cfg0.N) (a : Fin 1) (b : Fin 1024) :
    (iblk m c 4 t : S1x1024.Idx → EReal) (ix2 a b) = (V m c main_v14 : S1x1024.Idx → EReal) (ix2 a b) := by
  obtain ⟨_, _, _, _, _, _, _, _, _, _, e0, e1, _⟩ := idx_facts t
  show (V m c main_v14 : S1x1024.Idx → EReal) (((cfg0.win 4).blk t).view.emb (ix2 a b)) = _
  refine congrArg (V m c main_v14 : S1x1024.Idx → EReal) ?_
  funext d; apply Fin.ext
  match d with
  | ⟨0, _⟩ => show win0_4.index t (0 : Fin 2) * 1 + 1 * a.val = a.val; omega
  | ⟨1, _⟩ => show win0_4.index t (1 : Fin 2) * 1024 + 1 * b.val = b.val; omega

/-- Window 5's block is its whole array at every point. -/
theorem blk_gain1 (c : Dev nD) (t : Fin cfg0.N) (a : Fin 1) (b : Fin 1024) :
    (iblk m c 5 t : S1x1024.Idx → EReal) (ix2 a b) = (V m c main_v15 : S1x1024.Idx → EReal) (ix2 a b) := by
  obtain ⟨_, _, _, _, _, _, _, _, _, _, _, _, e0, e1, _⟩ := idx_facts t
  show (V m c main_v15 : S1x1024.Idx → EReal) (((cfg0.win 5).blk t).view.emb (ix2 a b)) = _
  refine congrArg (V m c main_v15 : S1x1024.Idx → EReal) ?_
  funext d; apply Fin.ext
  match d with
  | ⟨0, _⟩ => show win0_5.index t (0 : Fin 2) * 1 + 1 * a.val = a.val; omega
  | ⟨1, _⟩ => show win0_5.index t (1 : Fin 2) * 1024 + 1 * b.val = b.val; omega

/-- Window 6's block is its whole array at every point. -/
theorem blk_off1 (c : Dev nD) (t : Fin cfg0.N) (a : Fin 1) (b : Fin 1024) :
    (iblk m c 6 t : S1x1024.Idx → EReal) (ix2 a b) = (V m c main_v16 : S1x1024.Idx → EReal) (ix2 a b) := by
  obtain ⟨_, _, _, _, _, _, _, _, _, _, _, _, _, _, e0, e1, _⟩ := idx_facts t
  show (V m c main_v16 : S1x1024.Idx → EReal) (((cfg0.win 6).blk t).view.emb (ix2 a b)) = _
  refine congrArg (V m c main_v16 : S1x1024.Idx → EReal) ?_
  funext d; apply Fin.ext
  match d with
  | ⟨0, _⟩ => show win0_6.index t (0 : Fin 2) * 1 + 1 * a.val = a.val; omega
  | ⟨1, _⟩ => show win0_6.index t (1 : Fin 2) * 1024 + 1 * b.val = b.val; omega

/-- Window 7's block is its whole array at every point. -/
theorem blk_lin1 (c : Dev nD) (t : Fin cfg0.N) (a : Fin 32) (b : Fin 4096) :
    (iblk m c 7 t : S32x4096.Idx → EReal) (ix2 a b) = (V m c main_v6 : S32x4096.Idx → EReal) (ix2 a b) := by
  obtain ⟨_, _, _, _, _, _, _, _, _, _, _, _, _, _, _, _, e0, e1, _⟩ := idx_facts t
  show (V m c main_v6 : S32x4096.Idx → EReal) (((cfg0.win 7).blk t).view.emb (ix2 a b)) = _
  refine congrArg (V m c main_v6 : S32x4096.Idx → EReal) ?_
  funext d; apply Fin.ext
  match d with
  | ⟨0, _⟩ => show win0_7.index t (0 : Fin 2) * 32 + 1 * a.val = a.val; omega
  | ⟨1, _⟩ => show win0_7.index t (1 : Fin 2) * 4096 + 1 * b.val = b.val; omega

/-- Window 8's block is its whole array at every point. -/
theorem blk_lin1B (c : Dev nD) (t : Fin cfg0.N) (a : Fin 1) (b : Fin 4096) :
    (iblk m c 8 t : S1x4096.Idx → EReal) (ix2 a b) = (V m c main_v17 : S1x4096.Idx → EReal) (ix2 a b) := by
  obtain ⟨_, _, _, _, _, _, _, _, _, _, _, _, _, _, _, _, _, _, e0, e1, _⟩ := idx_facts t
  show (V m c main_v17 : S1x4096.Idx → EReal) (((cfg0.win 8).blk t).view.emb (ix2 a b)) = _
  refine congrArg (V m c main_v17 : S1x4096.Idx → EReal) ?_
  funext d; apply Fin.ext
  match d with
  | ⟨0, _⟩ => show win0_8.index t (0 : Fin 2) * 1 + 1 * a.val = a.val; omega
  | ⟨1, _⟩ => show win0_8.index t (1 : Fin 2) * 4096 + 1 * b.val = b.val; omega

/-- Window 9's block is its whole array at every point. -/
theorem blk_lin2 (c : Dev nD) (t : Fin cfg0.N) (a : Fin 4096) (b : Fin 1024) :
    (iblk m c 9 t : S4096x1024.Idx → EReal) (ix2 a b) = (V m c main_v8 : S4096x1024.Idx → EReal) (ix2 a b) := by
  obtain ⟨_, _, _, _, _, _, _, _, _, _, _, _, _, _, _, _, _, _, _, _, e0, e1, _⟩ := idx_facts t
  show (V m c main_v8 : S4096x1024.Idx → EReal) (((cfg0.win 9).blk t).view.emb (ix2 a b)) = _
  refine congrArg (V m c main_v8 : S4096x1024.Idx → EReal) ?_
  funext d; apply Fin.ext
  match d with
  | ⟨0, _⟩ => show win0_9.index t (0 : Fin 2) * 4096 + 1 * a.val = a.val; omega
  | ⟨1, _⟩ => show win0_9.index t (1 : Fin 2) * 1024 + 1 * b.val = b.val; omega

/-- Window 10's block is its whole array at every point. -/
theorem blk_lin2B (c : Dev nD) (t : Fin cfg0.N) (a : Fin 1) (b : Fin 1024) :
    (iblk m c 10 t : S1x1024.Idx → EReal) (ix2 a b) = (V m c main_v18 : S1x1024.Idx → EReal) (ix2 a b) := by
  obtain ⟨_, _, _, _, _, _, _, _, _, _, _, _, _, _, _, _, _, _, _, _, _, _, e0, e1, _⟩ := idx_facts t
  show (V m c main_v18 : S1x1024.Idx → EReal) (((cfg0.win 10).blk t).view.emb (ix2 a b)) = _
  refine congrArg (V m c main_v18 : S1x1024.Idx → EReal) ?_
  funext d; apply Fin.ext
  match d with
  | ⟨0, _⟩ => show win0_10.index t (0 : Fin 2) * 1 + 1 * a.val = a.val; omega
  | ⟨1, _⟩ => show win0_10.index t (1 : Fin 2) * 1024 + 1 * b.val = b.val; omega

/-- Window 11's block is its whole array at every point. -/
theorem blk_gain2 (c : Dev nD) (t : Fin cfg0.N) (a : Fin 1) (b : Fin 1024) :
    (iblk m c 11 t : S1x1024.Idx → EReal) (ix2 a b) = (V m c main_v19 : S1x1024.Idx → EReal) (ix2 a b) := by
  obtain ⟨_, _, _, _, _, _, _, _, _, _, _, _, _, _, _, _, _, _, _, _, _, _, _, _, e0, e1, _⟩ := idx_facts t
  show (V m c main_v19 : S1x1024.Idx → EReal) (((cfg0.win 11).blk t).view.emb (ix2 a b)) = _
  refine congrArg (V m c main_v19 : S1x1024.Idx → EReal) ?_
  funext d; apply Fin.ext
  match d with
  | ⟨0, _⟩ => show win0_11.index t (0 : Fin 2) * 1 + 1 * a.val = a.val; omega
  | ⟨1, _⟩ => show win0_11.index t (1 : Fin 2) * 1024 + 1 * b.val = b.val; omega

/-- Window 12's block is its whole array at every point. -/
theorem blk_off2 (c : Dev nD) (t : Fin cfg0.N) (a : Fin 1) (b : Fin 1024) :
    (iblk m c 12 t : S1x1024.Idx → EReal) (ix2 a b) = (V m c main_v20 : S1x1024.Idx → EReal) (ix2 a b) := by
  obtain ⟨_, _, _, _, _, _, _, _, _, _, _, _, _, _, _, _, _, _, _, _, _, _, _, _, _, _, e0, e1⟩ := idx_facts t
  show (V m c main_v20 : S1x1024.Idx → EReal) (((cfg0.win 12).blk t).view.emb (ix2 a b)) = _
  refine congrArg (V m c main_v20 : S1x1024.Idx → EReal) ?_
  funext d; apply Fin.ext
  match d with
  | ⟨0, _⟩ => show win0_12.index t (0 : Fin 2) * 1 + 1 * a.val = a.val; omega
  | ⟨1, _⟩ => show win0_12.index t (1 : Fin 2) * 1024 + 1 * b.val = b.val; omega

/-- `G` of core `c`'s thirteen argument arrays. -/
def resultOf (c : Dev nD) : S8x2048x1024.Idx → EReal :=
  Cert.TokenBlock.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- Row `r` of the token matrix of results, at feature `q`: token (r / 2048, r % 2048) of the result. -/
def rowAt (c : Dev nD) (r : Fin 16384) (q : Fin 1024) : EReal :=
  resultOf m c (ix3 ⟨r.val / 2048, by omega⟩ ⟨r.val % 2048, Nat.mod_lt _ (by decide)⟩ q)

/-- The token matrix of results [16384, 1024]. -/
def rows (c : Dev nD) : S16384x1024.Idx → EReal := fun i => rowAt m c (i 0) (i 1)

/-- `tok` at equal arguments. -/
theorem tok_congr {x x' : Fin 1024 → EReal} {Wq Wq' : Fin 1024 → Fin 1024 → EReal} {cf cf' : Fin 1024 → EReal}
    {Wc Wc' : Fin 1024 → Fin 1024 → EReal} {bc bc' g1 g1' b1 b1' : Fin 1024 → EReal}
    {W1 W1' : Fin 4096 → Fin 32 → EReal} {c1 c1' : Fin 4096 → EReal}
    {W2 W2' : Fin 1024 → Fin 4096 → EReal} {c2 c2' g2 g2' b2 b2' : Fin 1024 → EReal} (q : Fin 1024)
    (h0 : x = x') (h1 : Wq = Wq') (h2 : cf = cf') (h3 : Wc = Wc') (h4 : bc = bc') (h5 : g1 = g1') (h6 : b1 = b1')
    (h7 : W1 = W1') (h8 : c1 = c1') (h9 : W2 = W2') (h10 : c2 = c2') (h11 : g2 = g2') (h12 : b2 = b2') :
    Cert.TokenBlock.tok x Wq cf Wc bc g1 b1 W1 c1 W2 c2 g2 b2 q = Cert.TokenBlock.tok x' Wq' cf' Wc' bc' g1' b1' W1' c1' W2' c2' g2' b2' q := by
  subst h0 h1 h2 h3 h4 h5 h6 h7 h8 h9 h10 h11 h12; rfl

/-- An index of the token matrix is in point `t`'s block iff each coordinate is in the block's range on its axis. -/
theorem mem_blk (t : Fin cfg0.N) (i : S16384x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v21).slice (win0_13.rect t)).set ↔ _
  rw [View.set_slice_whole, Rect.mem_set_unit]
  exact Iff.rfl

/-- Row `r` lies in the block of point `r / 256`: the 64 blocks cover the token matrix. -/
theorem cover (i : S16384x1024.Idx) :
    ∃ t : Fin cfg0.N, (cfg0.win 13).flush t = true ∧ i ∈ ((cfg0.win 13).blk t).view.set := by
  have hi0 : (i 0).val < 16384 := idx2_lt0 i
  have hi1 : (i 1).val < 1024 := idx2_lt1 i
  have hN : cfg0.N = 64 := N_0
  have ht : (i 0).val / 256 < cfg0.N := by omega
  refine ⟨⟨(i 0).val / 256, ht⟩, flush0_13 _, ?_⟩
  rw [mem_blk]
  obtain ⟨e0, e1, _⟩ := idx_facts ⟨(i 0).val / 256, ht⟩
  have e0' : win0_13.index ⟨(i 0).val / 256, ht⟩ (0 : Fin 2) = (i 0).val / 256 := e0
  intro a
  match a with
  | ⟨0, _⟩ =>
    show win0_13.index ⟨(i 0).val / 256, ht⟩ (0 : Fin 2) * 256 ≤ (i 0).val
      ∧ (i 0).val < win0_13.index ⟨(i 0).val / 256, ht⟩ (0 : Fin 2) * 256 + 256
    omega
  | ⟨1, _⟩ =>
    show win0_13.index ⟨(i 0).val / 256, ht⟩ (1 : Fin 2) * 1024 ≤ (i 1).val
      ∧ (i 1).val < win0_13.index ⟨(i 0).val / 256, ht⟩ (1 : Fin 2) * 1024 + 1024
    omega

/-- What point `t` stores at (p, q) of its block is row 256·t + p of the token matrix of results, at q. -/
theorem point_value (c : Dev nD) (t : Fin cfg0.N) (p : Fin 256) (q : Fin 1024) :
    k0_pay1 (F := Ideal) (k0_pay6 (k0_pay2 (iblk m c 0 t) (iblk m c 1 t) (iblk m c 2 t) (iblk m c 3 t) (iblk m c 4 t)) (k0_pay3 (iblk m c 5 t)) (iblk m c 6 t) (iblk m c 7 t) (iblk m c 8 t) (iblk m c 9 t) (iblk m c 10 t))
        (k0_pay7 (k0_pay2 (iblk m c 0 t) (iblk m c 1 t) (iblk m c 2 t) (iblk m c 3 t) (iblk m c 4 t)) (k0_pay3 (iblk m c 5 t)) (iblk m c 6 t) (iblk m c 7 t) (iblk m c 8 t) (iblk m c 9 t) (iblk m c 10 t)) (iblk m c 11 t) (iblk m c 12 t) (ix2 p q)
      = rowAt m c ⟨256 * t.val + p.val, by have := point_lt t; omega⟩ q := by
  refine (BlockValue.block_value (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p q).trans ?_
  unfold rowAt resultOf
  rw [Cert.TokenBlock.G_apply]
  refine tok_congr q ?_ ?_ ?_ ?_ ?_ ?_ ?_ ?_ ?_ ?_ ?_ ?_ ?_
  · funext k; exact (blk_tokens m c t p k).trans (HostPrefix.V_tokens m c _ k)
  · funext f k; exact (blk_proj m c t k f).trans (HostPrefix.V_projT m c k f)
  · funext f; exact (blk_factor m c t 0 f).trans (HostPrefix.V_headFactor m c 0 f)
  · funext f k; exact (blk_comb m c t k f).trans (HostPrefix.V_combT m c k f)
  · funext f; exact (blk_combB m c t 0 f).trans (HostPrefix.V_combB m c 0 f)
  · funext f; exact (blk_gain1 m c t 0 f).trans (HostPrefix.V_gain1 m c 0 f)
  · funext f; exact (blk_off1 m c t 0 f).trans (HostPrefix.V_off1 m c 0 f)
  · funext j w; exact (blk_lin1 m c t w j).trans (HostPrefix.V_lin1T m c w j)
  · funext j; exact (blk_lin1B m c t 0 j).trans (HostPrefix.V_lin1B m c 0 j)
  · funext e j; exact (blk_lin2 m c t j e).trans (HostPrefix.V_lin2T m c j e)
  · funext e; exact (blk_lin2B m c t 0 e).trans (HostPrefix.V_lin2B m c 0 e)
  · funext e; exact (blk_gain2 m c t 0 e).trans (HostPrefix.V_gain2 m c 0 e)
  · funext e; exact (blk_off2 m c t 0 e).trans (HostPrefix.V_off2 m c 0 e)

/-- The zero offsets of a whole-buffer access, however spelt. -/
theorem zero_off : (![0, 0] : Fin 2 → Nat) = fun _ => 0 := funext fun a => by fin_cases a <;> rfl

/-- What point `t` writes back is block `t` of the token matrix of results. -/
theorem flushed_eq (c : Dev nD) (t : Fin cfg0.N) :
    (dats m 0 c).flushed 13 t = ((cfg0.win 13).blk t).view.read (Elt Ideal) (rows m c) := by
  show (cfg0.win 13).cut (grid0.coords t) ((dats m 0 c).after 13 t) = _
  rw [after0_13]
  unfold out0_13
  rw [View.canon_unit_zero zero_off]
  simp only [View.ld_unit_zero (S := S256x1024) zero_off, View.ld_unit_zero (S := S1024x1024) zero_off,
    View.ld_unit_zero (S := S1x1024) zero_off, View.ld_unit_zero (S := S32x4096) zero_off,
    View.ld_unit_zero (S := S1x4096) zero_off, View.ld_unit_zero (S := S4096x1024) zero_off]
  funext y
  obtain ⟨e0, e1, _⟩ := idx_facts t
  have hy0 : (y 0).val < 256 := (y 0).isLt
  have hy1 : (y 1).val < 1024 := (y 1).isLt
  -- the block's entry (y 0, y 1) sits at row 256·t + y 0, feature y 1 of the token matrix
  have hi : ((cfg0.win 13).blk t).view.emb y
      = (ix2 (⟨256 * t.val + (y 0).val, by have := point_lt t; omega⟩ : Fin 16384) (⟨(y 1).val, hy1⟩ : Fin 1024) : S16384x1024.Idx) := by
    funext a; apply Fin.ext
    match a with
    | ⟨0, _⟩ => show win0_13.index t (0 : Fin 2) * 256 + 1 * (y 0).val = 256 * t.val + (y 0).val; omega
    | ⟨1, _⟩ => show win0_13.index t (1 : Fin 2) * 1024 + 1 * (y 1).val = (y 1).val; omega
  have hy : y = (ix2 (⟨(y 0).val, hy0⟩ : Fin 256) (⟨(y 1).val, hy1⟩ : Fin 1024) : S256x1024.Idx) := by
    funext a; apply Fin.ext
    match a with
    | ⟨0, _⟩ => rfl
    | ⟨1, _⟩ => rfl
  show _ = rows m c (((cfg0.win 13).blk t).view.emb y)
  rw [hi]
  show _ = rowAt m c ⟨256 * t.val + (y 0).val, _⟩ ⟨(y 1).val, hy1⟩
  refine Eq.trans ?_ (point_value m c t ⟨(y 0).val, hy0⟩ ⟨(y 1).val, hy1⟩)
  exact congrArg _ hy

/-- After the region the token matrix holds the token matrix of results. -/
theorem final (c : Dev nD) : (dats m 0 c).arrAt 13 cfg0.N = rows m c :=
  (dats m 0 c).arrAt_eq_of_cover 13 (rows m c) (fun t _ => flushed_eq m c t) cover

/-- The last host operation splits the row axis back into (8, 2048): entry (b, s, e) of the result array is row
    2048·b + s of the token matrix at e, which is `G` of the arguments at (b, s, e). -/
theorem tail_value (c : Dev nD) :
    Pipeline.afterTail₀ cfgs (dats m) 0 (V0 m) [hostOps1] c main_v22 = resultOf m c := by
  unfold Pipeline.afterTail₀
  show StableHlo.after hostOps1 _ (Proc.devRef .tc main_v22) = _
  after_results
  have hw : Pipeline.withArrays (cfgs 0).spec c (V0 m c) (fun w => (dats m 0 c).arrAt w (cfgs 0).N) (Proc.devRef .tc main_v21) = rows m c :=
    (Pipeline.withArrays_arr spec0 launch0.win.arr_inj c _ _ 13).trans (final m c)
  funext j
  have hj0 : (j 0).val < 8 := (j 0).isLt
  have hj1 : (j 1).val < 2048 := (j 1).isLt
  have hj2 : (j 2).val < 1024 := (j 2).isLt
  show shapeCast S8x2048x1024 (Pipeline.withArrays (cfgs 0).spec c (V0 m c) (fun w => (dats m 0 c).arrAt w (cfgs 0).N) (Proc.devRef .tc main_v21)) shapeCasts_S16384x1024_S8x2048x1024 j = resultOf m c j
  rw [hw]
  refine (shapeCast_apply (rows m c) shapeCasts_S16384x1024_S8x2048x1024 j
    (ix2 (⟨2048 * (j 0).val + (j 1).val, by omega⟩ : Fin 16384) (⟨(j 2).val, hj2⟩ : Fin 1024)) ?_).trans ?_
  · rw [Shape.rowMajor_val_two, Shape.rowMajor_val_three]
    show (2048 * (j 0).val + (j 1).val) * 1024 + (j 2).val = ((j 0).val * 2048 + (j 1).val) * 1024 + (j 2).val
    omega
  · show resultOf m c (ix3 ⟨(2048 * (j 0).val + (j 1).val) / 2048, _⟩ ⟨(2048 * (j 0).val + (j 1).val) % 2048, _⟩ ⟨(j 2).val, hj2⟩) = resultOf m c j
    refine congrArg (resultOf m c) ?_
    funext a; apply Fin.ext
    match a with
    | ⟨0, _⟩ => show (2048 * (j 0).val + (j 1).val) / 2048 = (j 0).val; omega
    | ⟨1, _⟩ => show (2048 * (j 0).val + (j 1).val) % 2048 = (j 1).val; omega
    | ⟨2, _⟩ => rfl

/-- Every weakly fair execution of the idealized kernel program terminates with its result at `G` of the arguments and
    the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v22)
        = Cert.TokenBlock.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c =>
    ⟨((h c).2 main_v22 (Pipeline.mem_restRefs_of main_v22 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.KernelArray

end
-- ==== Proof.RefValue.lean ====
/-
  The reference's result array is `TokenBlock.G` of the argument arrays: its operations, read one at a time at an
  index, are the row function `tok` applied to the token's row.
-/
import proofs.«149033_j65481071407980_1_alg».proof.Proof.RefRead
import proofs.«149033_j65481071407980_1_alg».proof.Proof.Spec

noncomputable section

open scoped BigOperators

namespace Cert.ReferenceIdeal.RefValue

open Idealize.ShloMosaic Idealize.ShloMosaic.ValueIdx Cert.ReferenceIdeal Cert.ReferenceIdeal.ReadP Cert.TokenBlock

/-! ## The specification's functions, each unfolded once -/

theorem linT_eq {n k : Nat} (x : Fin k → EReal) (W : Fin n → Fin k → EReal) (f : Fin n) :
    linT x W f = ∑ j : Fin k, x j * W f j := rfl

theorem mean_eq (y : Fin 1024 → EReal) : mean y = Ideal.div (∑ k : Fin 1024, y k) width := rfl

theorem var_eq (y : Fin 1024 → EReal) :
    var y = Ideal.div (∑ k : Fin 1024, (y k - mean y) * (y k - mean y)) width := rfl

theorem attn_eq (x : Fin 1024 → EReal) (Wq : Fin 1024 → Fin 1024 → EReal) (c : Fin 1024 → EReal)
    (Wc : Fin 1024 → Fin 1024 → EReal) (bc : Fin 1024 → EReal) (f : Fin 1024) :
    attn x Wq c Wc bc f = (∑ k : Fin 1024, Ideal.cos (linT x Wq k) * c k * Wc f k) + bc f := rfl

theorem hidden_eq (h : Fin 1024 → EReal) (W1 : Fin 4096 → Fin 32 → EReal) (b1' : Fin 4096 → EReal) (j : Fin 4096) :
    hidden h W1 b1' j = max ((∑ w : Fin 32, Ideal.cos (h (Fin.castLE (by decide) w)) * W1 j w) + b1' j) 0 := rfl

theorem ffn_eq (h : Fin 1024 → EReal) (W1 : Fin 4096 → Fin 32 → EReal) (b1' : Fin 4096 → EReal)
    (W2 : Fin 1024 → Fin 4096 → EReal) (b2' : Fin 1024 → EReal) (e : Fin 1024) :
    ffn h W1 b1' W2 b2' e = (∑ j : Fin 4096, hidden h W1 b1' j * W2 e j) + b2' e := rfl

/-! ## Rows, matrices and vectors by coordinates -/

/-- Row `(b, s)` of the token array. -/
abbrev row (x : S8x2048x1024.Idx → EReal) (b : Fin 8) (s : Fin 2048) : Fin 1024 → EReal := fun k => x (ix3 b s k)

/-- A weight matrix, stored (output feature, input feature), by its two coordinates. -/
abbrev mat {n k : Nat} (W : (⟨2, ![n, k]⟩ : Shape).Idx → EReal) : Fin n → Fin k → EReal := fun f j => W (ix2 f j)

/-- A bias, gain or offset vector by its coordinate. -/
abbrev vec {n : Nat} (v : (⟨1, ![n]⟩ : Shape).Idx → EReal) : Fin n → EReal := fun f => v (ix1 f)

/-! ## The index functions of the reference's layout operations at explicit coordinates

A contraction reads row `(b, s)` of its left operand and row `f` of its weights; a sum over the feature axis reads
row `(b, s)`; a broadcast of a vector reads it at the feature; a broadcast of a per-row scalar reads it at the row. -/

theorem lidx0 (b : Fin 8) (s : Fin 2048) (f k : Fin 1024) : lidx_main_v0 (ix3 b s f) k = ix3 b s k := by
  funext a; match a with | ⟨0, _⟩ => rfl | ⟨1, _⟩ => rfl | ⟨2, _⟩ => rfl
theorem ridx0 (b : Fin 8) (s : Fin 2048) (f k : Fin 1024) : ridx_main_v0 (ix3 b s f) k = ix2 f k := by
  funext a; match a with | ⟨0, _⟩ => rfl | ⟨1, _⟩ => rfl
theorem lidx8 (b : Fin 8) (s : Fin 2048) (f k : Fin 1024) : lidx_main_v8 (ix3 b s f) k = ix3 b s k := by
  funext a; match a with | ⟨0, _⟩ => rfl | ⟨1, _⟩ => rfl | ⟨2, _⟩ => rfl
theorem ridx8 (b : Fin 8) (s : Fin 2048) (f k : Fin 1024) : ridx_main_v8 (ix3 b s f) k = ix2 f k := by
  funext a; match a with | ⟨0, _⟩ => rfl | ⟨1, _⟩ => rfl
theorem lidx39 (b : Fin 8) (s : Fin 2048) (j : Fin 4096) (k : Fin 32) : lidx_main_v39 (ix3 b s j) k = ix3 b s k := by
  funext a; match a with | ⟨0, _⟩ => rfl | ⟨1, _⟩ => rfl | ⟨2, _⟩ => rfl
theorem ridx39 (b : Fin 8) (s : Fin 2048) (j : Fin 4096) (k : Fin 32) : ridx_main_v39 (ix3 b s j) k = ix2 j k := by
  funext a; match a with | ⟨0, _⟩ => rfl | ⟨1, _⟩ => rfl
theorem lidx44 (b : Fin 8) (s : Fin 2048) (e : Fin 1024) (k : Fin 4096) : lidx_main_v44 (ix3 b s e) k = ix3 b s k := by
  funext a; match a with | ⟨0, _⟩ => rfl | ⟨1, _⟩ => rfl | ⟨2, _⟩ => rfl
theorem ridx44 (b : Fin 8) (s : Fin 2048) (e : Fin 1024) (k : Fin 4096) : ridx_main_v44 (ix3 b s e) k = ix2 e k := by
  funext a; match a with | ⟨0, _⟩ => rfl | ⟨1, _⟩ => rfl

/-- The reshape to heads: feature `f` of a row is lane `f % 64` of head `f / 64`. -/
theorem idx7 (b : Fin 8) (s : Fin 2048) (f : Fin 1024) :
    idx_main_v7 (ix3 b s f)
      = ix4 b s (⟨f.val / 64, by have := f.isLt; omega⟩ : Fin 16) (⟨f.val % 64, Nat.mod_lt _ (by decide)⟩ : Fin 64) := by
  have hb := b.isLt; have hs := s.isLt; have hf := f.isLt
  funext a; refine Fin.ext ?_
  match a with
  | ⟨0, _⟩ => show ((b.val * 2048 + s.val) * 1024 + f.val) / 2097152 = b.val; omega
  | ⟨1, _⟩ => show ((b.val * 2048 + s.val) * 1024 + f.val) / 1024 % 2048 = s.val; omega
  | ⟨2, _⟩ => show ((b.val * 2048 + s.val) * 1024 + f.val) / 64 % 16 = f.val / 64; omega
  | ⟨3, _⟩ => show ((b.val * 2048 + s.val) * 1024 + f.val) % 64 = f.val % 64; omega

/-- The reshape back: lane `d` of head `h` is feature `64 · h + d` of the row. -/
theorem idx1 (b : Fin 8) (s : Fin 2048) (h : Fin 16) (d : Fin 64) (f : Fin 1024) (hf : f.val = h.val * 64 + d.val) :
    idx_main_v1 (ix4 b s h d) = ix3 b s f := by
  have hb := b.isLt; have hs := s.isLt; have hh := h.isLt; have hd := d.isLt
  funext a; refine Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = f.val; omega

/-- The two reshapes compose to the identity on `(b, s, f)`. -/
theorem idx1_7 (b : Fin 8) (s : Fin 2048) (f : Fin 1024) : idx_main_v1 (idx_main_v7 (ix3 b s f)) = ix3 b s f := by
  rw [idx7]
  exact idx1 b s _ _ f (by show f.val = f.val / 64 * 64 + f.val % 64; omega)

/-- The broadcast of the 64-vector over batch, sequence and heads reads it at the lane `f % 64`. -/
theorem idx4_5_7 (b : Fin 8) (s : Fin 2048) (f : Fin 1024) :
    idx_main_v4 (idx_main_v5 (idx_main_v7 (ix3 b s f))) = ix1 (⟨f.val % 64, Nat.mod_lt _ (by decide)⟩ : Fin 64) := by
  rw [idx7]
  funext a; match a with | ⟨0, _⟩ => rfl

theorem idx9_10 (b : Fin 8) (s : Fin 2048) (f : Fin 1024) : idx_main_v9 (idx_main_v10 (ix3 b s f)) = ix1 f := by
  funext a; match a with | ⟨0, _⟩ => rfl
theorem idx31_32 (b : Fin 8) (s : Fin 2048) (f : Fin 1024) : idx_main_v31 (idx_main_v32 (ix3 b s f)) = ix1 f := by
  funext a; match a with | ⟨0, _⟩ => rfl
theorem idx34_35 (b : Fin 8) (s : Fin 2048) (f : Fin 1024) : idx_main_v34 (idx_main_v35 (ix3 b s f)) = ix1 f := by
  funext a; match a with | ⟨0, _⟩ => rfl
theorem idx45_46 (b : Fin 8) (s : Fin 2048) (f : Fin 1024) : idx_main_v45 (idx_main_v46 (ix3 b s f)) = ix1 f := by
  funext a; match a with | ⟨0, _⟩ => rfl
theorem idx67_68 (b : Fin 8) (s : Fin 2048) (f : Fin 1024) : idx_main_v67 (idx_main_v68 (ix3 b s f)) = ix1 f := by
  funext a; match a with | ⟨0, _⟩ => rfl
theorem idx70_71 (b : Fin 8) (s : Fin 2048) (f : Fin 1024) : idx_main_v70 (idx_main_v71 (ix3 b s f)) = ix1 f := by
  funext a; match a with | ⟨0, _⟩ => rfl
theorem idx40_41 (b : Fin 8) (s : Fin 2048) (j : Fin 4096) : idx_main_v40 (idx_main_v41 (ix3 b s j)) = ix1 j := by
  funext a; match a with | ⟨0, _⟩ => rfl

theorem idx13_14 (b : Fin 8) (s : Fin 2048) (z : Fin 1) (k : Fin 1024) :
    idx_main_v13 (idx_main_v14 (ix3 b s z)) k = ix3 b s k := by
  funext a; match a with | ⟨0, _⟩ => rfl | ⟨1, _⟩ => rfl | ⟨2, _⟩ => rfl
theorem idx20_21 (b : Fin 8) (s : Fin 2048) (z : Fin 1) (k : Fin 1024) :
    idx_main_v20 (idx_main_v21 (ix3 b s z)) k = ix3 b s k := by
  funext a; match a with | ⟨0, _⟩ => rfl | ⟨1, _⟩ => rfl | ⟨2, _⟩ => rfl
theorem idx49_50 (b : Fin 8) (s : Fin 2048) (z : Fin 1) (k : Fin 1024) :
    idx_main_v49 (idx_main_v50 (ix3 b s z)) k = ix3 b s k := by
  funext a; match a with | ⟨0, _⟩ => rfl | ⟨1, _⟩ => rfl | ⟨2, _⟩ => rfl
theorem idx56_57 (b : Fin 8) (s : Fin 2048) (z : Fin 1) (k : Fin 1024) :
    idx_main_v56 (idx_main_v57 (ix3 b s z)) k = ix3 b s k := by
  funext a; match a with | ⟨0, _⟩ => rfl | ⟨1, _⟩ => rfl | ⟨2, _⟩ => rfl

theorem idx17 (b : Fin 8) (s : Fin 2048) (f : Fin 1024) : idx_main_v17 (ix3 b s f) = ix3 b s (0 : Fin 1) := by
  funext a; match a with | ⟨0, _⟩ => rfl | ⟨1, _⟩ => rfl | ⟨2, _⟩ => rfl
theorem idx24 (b : Fin 8) (s : Fin 2048) (f : Fin 1024) : idx_main_v24 (ix3 b s f) = ix3 b s (0 : Fin 1) := by
  funext a; match a with | ⟨0, _⟩ => rfl | ⟨1, _⟩ => rfl | ⟨2, _⟩ => rfl
theorem idx29 (b : Fin 8) (s : Fin 2048) (f : Fin 1024) : idx_main_v29 (ix3 b s f) = ix3 b s (0 : Fin 1) := by
  funext a; match a with | ⟨0, _⟩ => rfl | ⟨1, _⟩ => rfl | ⟨2, _⟩ => rfl
theorem idx53 (b : Fin 8) (s : Fin 2048) (f : Fin 1024) : idx_main_v53 (ix3 b s f) = ix3 b s (0 : Fin 1) := by
  funext a; match a with | ⟨0, _⟩ => rfl | ⟨1, _⟩ => rfl | ⟨2, _⟩ => rfl
theorem idx60 (b : Fin 8) (s : Fin 2048) (f : Fin 1024) : idx_main_v60 (ix3 b s f) = ix3 b s (0 : Fin 1) := by
  funext a; match a with | ⟨0, _⟩ => rfl | ⟨1, _⟩ => rfl | ⟨2, _⟩ => rfl
theorem idx65 (b : Fin 8) (s : Fin 2048) (f : Fin 1024) : idx_main_v65 (ix3 b s f) = ix3 b s (0 : Fin 1) := by
  funext a; match a with | ⟨0, _⟩ => rfl | ⟨1, _⟩ => rfl | ⟨2, _⟩ => rfl

/-- The slice keeps the first 32 features of a row. -/
theorem idx37 (b : Fin 8) (s : Fin 2048) (w : Fin 32) :
    idx_main_v37 (ix3 b s w) = ix3 b s (Fin.castLE (by decide) w : Fin 1024) := by
  funext a; match a with | ⟨0, _⟩ => rfl | ⟨1, _⟩ => rfl | ⟨2, _⟩ => rfl

/-! ## The stages of the reference at row `(b, s)` -/

section Stages

variable (x0 : (⟨S8x2048x1024, .f32⟩ : BufTy).Contents (Elt Ideal)) (x1 : (⟨S1024x1024, .f32⟩ : BufTy).Contents (Elt Ideal))
  (x2 : (⟨S64, .f32⟩ : BufTy).Contents (Elt Ideal)) (x3 : (⟨S1024x1024, .f32⟩ : BufTy).Contents (Elt Ideal))
  (x4 x5 x6 : (⟨S1024, .f32⟩ : BufTy).Contents (Elt Ideal)) (x7 : (⟨S4096x32, .f32⟩ : BufTy).Contents (Elt Ideal))
  (x8 : (⟨S4096, .f32⟩ : BufTy).Contents (Elt Ideal)) (x9 : (⟨S1024x4096, .f32⟩ : BufTy).Contents (Elt Ideal))
  (x10 x11 x12 : (⟨S1024, .f32⟩ : BufTy).Contents (Elt Ideal)) (b : Fin 8) (s : Fin 2048)

/-- The row entering the first normalisation: the token's row plus its attention branch. -/
abbrev pre1 : Fin 1024 → EReal :=
  fun f => row x0 b s f + attn (row x0 b s) (mat x1) (headFactor x2) (mat x3) (vec x4) f

/-- The row after the first normalisation. -/
abbrev mid1 : Fin 1024 → EReal :=
  mid (row x0 b s) (mat x1) (headFactor x2) (mat x3) (vec x4) (vec x5) (vec x6)

/-- The row entering the second normalisation: the normalised row plus its feed-forward branch. -/
abbrev pre2 : Fin 1024 → EReal :=
  fun e => mid1 x0 x1 x2 x3 x4 x5 x6 b s e + ffn (mid1 x0 x1 x2 x3 x4 x5 x6 b s) (mat x7) (vec x8) (mat x9) (vec x10) e

/-- The projection: row `(b, s)` times the transpose of the projection weights. -/
theorem v0_at (f : Fin 1024) : val_main_v0 (F := Ideal) x0 x1 (ix3 b s f) = linT (row x0 b s) (mat x1) f := by
  rw [val_main_v0_apply, linT_eq]
  exact Finset.sum_congr rfl fun k _ => by rw [lidx0, ridx0]

/-- Through the two reshapes the cosine of the projection is scaled by the head factor of the feature's lane. -/
theorem v7_at (f : Fin 1024) :
    val_main_v7 (F := Ideal) x0 x1 x2 (ix3 b s f) = Ideal.cos (linT (row x0 b s) (mat x1) f) * headFactor x2 f := by
  rw [val_main_v7_apply, val_main_v6_apply, val_main_v2_apply, val_main_v1_apply, idx1_7, v0_at,
    val_main_v5_apply, val_main_v4_apply, val_main_v3_apply, idx4_5_7]
  rfl

/-- The attention branch. -/
theorem v11_at (f : Fin 1024) :
    val_main_v11 (F := Ideal) x0 x1 x2 x3 x4 (ix3 b s f) = attn (row x0 b s) (mat x1) (headFactor x2) (mat x3) (vec x4) f := by
  rw [val_main_v11_apply, val_main_v8_apply, val_main_v10_apply, val_main_v9_apply, idx9_10, attn_eq]
  simp only [Ideal.addf_def]
  congr 1
  exact Finset.sum_congr rfl fun k _ => by rw [lidx8, ridx8, v7_at]

/-- The first residual. -/
theorem v12_at (f : Fin 1024) : val_main_v12 (F := Ideal) x0 x1 x2 x3 x4 (ix3 b s f) = pre1 x0 x1 x2 x3 x4 b s f := by
  rw [val_main_v12_apply, v11_at]
  rfl

/-- The first mean. -/
theorem v16_at (z : Fin 1) : val_main_v16 (F := Ideal) x0 x1 x2 x3 x4 (ix3 b s z) = mean (pre1 x0 x1 x2 x3 x4 b s) := by
  rw [val_main_v16_apply, val_main_v14_apply, val_main_v13_apply, val_main_v15_apply, val_main_cst_0_apply,
    val_main_cst_apply, mean_eq, width]
  simp only [Ideal.hostDivf_def, Ideal.ofBits_def, Ideal.ofBits_zero_f32, zero_add]
  congr 1
  exact Finset.sum_congr rfl fun k _ => by rw [idx13_14, v12_at]

/-- The first centring. -/
theorem v18_at (f : Fin 1024) :
    val_main_v18 (F := Ideal) x0 x1 x2 x3 x4 (ix3 b s f) = pre1 x0 x1 x2 x3 x4 b s f - mean (pre1 x0 x1 x2 x3 x4 b s) := by
  rw [val_main_v18_apply, val_main_v17_apply, idx17, v12_at, v16_at]
  rfl

/-- The first variance. -/
theorem v23_at (z : Fin 1) : val_main_v23 (F := Ideal) x0 x1 x2 x3 x4 (ix3 b s z) = var (pre1 x0 x1 x2 x3 x4 b s) := by
  rw [val_main_v23_apply, val_main_v21_apply, val_main_v20_apply, val_main_v22_apply, val_main_cst_2_apply,
    val_main_cst_1_apply, var_eq, width]
  simp only [Ideal.hostDivf_def, Ideal.ofBits_def, Ideal.ofBits_zero_f32, zero_add]
  congr 1
  exact Finset.sum_congr rfl fun k _ => by rw [idx20_21, val_main_v19_apply, v18_at]; rfl

/-- The first normalisation: the specification's `mid`. -/
theorem v36_at (f : Fin 1024) : val_main_v36 (F := Ideal) x0 x1 x2 x3 x4 x5 x6 (ix3 b s f) = mid1 x0 x1 x2 x3 x4 x5 x6 b s f := by
  rw [val_main_v36_apply, val_main_v33_apply, val_main_v30_apply, val_main_v25_apply, val_main_v24_apply, idx24,
    v12_at, v16_at, val_main_v29_apply, idx29, val_main_v28_apply, val_main_v27_apply, v23_at, val_main_v26_apply,
    val_main_cst_3_apply, val_main_v32_apply, val_main_v31_apply, idx31_32, val_main_v35_apply, val_main_v34_apply,
    idx34_35]
  rfl

/-- The hidden layer: cosines of the first 32 normalised features, the first linear map, the positive part. -/
theorem v43_at (j : Fin 4096) :
    val_main_v43 (F := Ideal) x0 x1 x2 x3 x4 x5 x6 x7 x8 (ix3 b s j) = hidden (mid1 x0 x1 x2 x3 x4 x5 x6 b s) (mat x7) (vec x8) j := by
  rw [val_main_v43_apply, val_main_v42_apply, val_main_v39_apply, val_main_v41_apply, val_main_v40_apply, idx40_41,
    val_main_call0_v0_apply, val_main_call0_cst_apply, hidden_eq]
  simp only [Ideal.maximumf_def, Ideal.addf_def, Ideal.ofBits_def, Ideal.ofBits_zero_f32]
  congr 2
  exact Finset.sum_congr rfl fun k _ => by
    rw [lidx39, ridx39, val_main_v38_apply, val_main_v37_apply, idx37, v36_at]; rfl

/-- The feed-forward branch. -/
theorem v47_at (e : Fin 1024) :
    val_main_v47 (F := Ideal) x0 x1 x2 x3 x4 x5 x6 x7 x8 x9 x10 (ix3 b s e)
      = ffn (mid1 x0 x1 x2 x3 x4 x5 x6 b s) (mat x7) (vec x8) (mat x9) (vec x10) e := by
  rw [val_main_v47_apply, val_main_v44_apply, val_main_v46_apply, val_main_v45_apply, idx45_46, ffn_eq]
  simp only [Ideal.addf_def]
  congr 1
  exact Finset.sum_congr rfl fun k _ => by rw [lidx44, ridx44, v43_at]

/-- The second residual. -/
theorem v48_at (e : Fin 1024) : val_main_v48 (F := Ideal) x0 x1 x2 x3 x4 x5 x6 x7 x8 x9 x10 (ix3 b s e) = pre2 x0 x1 x2 x3 x4 x5 x6 x7 x8 x9 x10 b s e := by
  rw [val_main_v48_apply, v36_at, v47_at]
  rfl

/-- The second mean. -/
theorem v52_at (z : Fin 1) : val_main_v52 (F := Ideal) x0 x1 x2 x3 x4 x5 x6 x7 x8 x9 x10 (ix3 b s z) = mean (pre2 x0 x1 x2 x3 x4 x5 x6 x7 x8 x9 x10 b s) := by
  rw [val_main_v52_apply, val_main_v50_apply, val_main_v49_apply, val_main_v51_apply, val_main_cst_5_apply,
    val_main_cst_4_apply, mean_eq, width]
  simp only [Ideal.hostDivf_def, Ideal.ofBits_def, Ideal.ofBits_zero_f32, zero_add]
  congr 1
  exact Finset.sum_congr rfl fun k _ => by rw [idx49_50, v48_at]

/-- The second centring. -/
theorem v54_at (e : Fin 1024) :
    val_main_v54 (F := Ideal) x0 x1 x2 x3 x4 x5 x6 x7 x8 x9 x10 (ix3 b s e) = pre2 x0 x1 x2 x3 x4 x5 x6 x7 x8 x9 x10 b s e - mean (pre2 x0 x1 x2 x3 x4 x5 x6 x7 x8 x9 x10 b s) := by
  rw [val_main_v54_apply, val_main_v53_apply, idx53, v48_at, v52_at]
  rfl

/-- The second variance. -/
theorem v59_at (z : Fin 1) : val_main_v59 (F := Ideal) x0 x1 x2 x3 x4 x5 x6 x7 x8 x9 x10 (ix3 b s z) = var (pre2 x0 x1 x2 x3 x4 x5 x6 x7 x8 x9 x10 b s) := by
  rw [val_main_v59_apply, val_main_v57_apply, val_main_v56_apply, val_main_v58_apply, val_main_cst_7_apply,
    val_main_cst_6_apply, var_eq, width]
  simp only [Ideal.hostDivf_def, Ideal.ofBits_def, Ideal.ofBits_zero_f32, zero_add]
  congr 1
  exact Finset.sum_congr rfl fun k _ => by rw [idx56_57, val_main_v55_apply, v54_at]; rfl

/-- The second normalisation: the whole block applied to row `(b, s)`. -/
theorem v72_at (e : Fin 1024) :
    val_main_v72 (F := Ideal) x0 x1 x2 x3 x4 x5 x6 x7 x8 x9 x10 x11 x12 (ix3 b s e)
      = tok (row x0 b s) (mat x1) (headFactor x2) (mat x3) (vec x4) (vec x5) (vec x6) (mat x7) (vec x8) (mat x9) (vec x10)
          (vec x11) (vec x12) e := by
  rw [val_main_v72_apply, val_main_v69_apply, val_main_v66_apply, val_main_v61_apply, val_main_v60_apply, idx60,
    v48_at, v52_at, val_main_v65_apply, idx65, val_main_v64_apply, val_main_v63_apply, v59_at, val_main_v62_apply,
    val_main_cst_8_apply, val_main_v68_apply, val_main_v67_apply, idx67_68, val_main_v71_apply, val_main_v70_apply,
    idx70_71]
  rfl

end Stages

/-- The reference's last stage, as a function of the thirteen arguments, is `G`. -/
theorem ref_value (x0 : S8x2048x1024.Idx → EReal) (x1 : S1024x1024.Idx → EReal) (x2 : S64.Idx → EReal)
    (x3 : S1024x1024.Idx → EReal) (x4 x5 x6 : S1024.Idx → EReal) (x7 : S4096x32.Idx → EReal) (x8 : S4096.Idx → EReal)
    (x9 : S1024x4096.Idx → EReal) (x10 x11 x12 : S1024.Idx → EReal) :
    val_main_v72 (F := Ideal) x0 x1 x2 x3 x4 x5 x6 x7 x8 x9 x10 x11 x12 = G x0 x1 x2 x3 x4 x5 x6 x7 x8 x9 x10 x11 x12 := by
  funext i
  obtain ⟨b, s, e, rfl⟩ : ∃ (b : Fin 8) (s : Fin 2048) (e : Fin 1024), i = ix3 b s e := ⟨i 0, i 1, i 2, eq_ix3 i⟩
  rw [G_apply]
  exact v72_at x0 x1 x2 x3 x4 x5 x6 x7 x8 x9 x10 x11 x12 b s e

end Cert.ReferenceIdeal.RefValue

end
-- ==== Proof.lean ====
/-
  The certificate of a fused transformer block: a Pallas kernel over 64 blocks of 256 tokens against its jnp reference.

  Both programs send each token's row of 1024 features through the same chain (a cosine-activated projection combined
  back and added to the row, a layer normalisation, a feed-forward branch through 4096 hidden units fed by the cosines of
  the first 32 features, a second layer normalisation), with the same operations in the same order and the same float
  words; they differ only in layout: the kernel merges the two token axes, transposes the weights beforehand and repeats
  the 64 head factors over the 16 heads beforehand, where the reference splits the feature axis into heads and contracts
  against the untransposed weights. On the extended reals a change of float format is the identity, a matrix product
  into a zero accumulator is the host's contraction, and a lane sum is the host's sum, so both results are the one
  function `TokenBlock.G` of the arguments (Proof/Spec.lean), entry by entry; no finiteness of the inputs is used.

  The kernel's side: Proof/AttnValue.lean and Proof/FfnValue.lean read the body's two halves at an entry of a block,
  Proof/BlockValue.lean joins them into the row function, Proof/HostPrefix.lean reads the arrays the windows stage, and
  Proof/KernelArray.lean covers the token matrix by the 64 blocks and undoes the merge of the token axes. The
  reference's side: Proof/RefValue.lean reads its operations one at a time. The three frames are the generated runs;
  the idealization rewrote nothing, so `preserves` is trivial.
-/
import proofs.«149033_j65481071407980_1_alg».proof.Defs
import proofs.«149033_j65481071407980_1_alg».proof.Proof.Gen.Kernel
import proofs.«149033_j65481071407980_1_alg».proof.Proof.Gen.Kernel.Frame
import proofs.«149033_j65481071407980_1_alg».proof.Proof.Gen.KernelIdeal
import proofs.«149033_j65481071407980_1_alg».proof.Proof.Gen.KernelIdeal.Frame
import proofs.«149033_j65481071407980_1_alg».proof.Proof.Gen.ReferenceIdeal
import proofs.«149033_j65481071407980_1_alg».proof.Proof.Gen.Pre_finite_inputs
import proofs.«149033_j65481071407980_1_alg».proof.Proof.KernelArray
import proofs.«149033_j65481071407980_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and keeps its arguments: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- From memories that agree on the thirteen arguments both idealized programs end with the result array at
    `TokenBlock.G` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelArray.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v72_eq, Cert.ReferenceIdeal.RefValue.ref_value,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
